-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4x512x512 : Shape := ⟨4, ![16, 4, 512, 512]⟩
abbrev S16x512x512 : Shape := ⟨3, ![16, 512, 512]⟩
abbrev S_ : Shape := ⟨0, ![]⟩

class Facts : Prop where
  bcast_S_S16x4x512x512 : S_.BroadcastsInDim S16x4x512x512 (![] : Fin 0 → Fin S16x4x512x512.rank)
  reducesTo_S16x4x512x512_S_d0_1_2_3 : S16x4x512x512.ReducesTo [0, 1, 2, 3] S_
  h_S_ : 0 < S_.numel

variable [Facts]

def fn {F : FTy → Type} [FloatOps F] (main_arg0 : FVec F S16x4x512x512 .f32) (main_arg1 : IVec S16x512x512 32) (main_arg2 : IVec S16x512x512 32) : IVec S_ 1 :=
  let main_v0 : FVec F S16x4x512x512 .f32 := Host.absf main_arg0
  let main_cst : FVec F S_ .f32 := constant S_ .f32 0x7F800000#32
  let main_v1 : FVec F S16x4x512x512 .f32 := broadcastInDim S16x4x512x512 ![] bcast_S_S16x4x512x512 main_cst
  let main_v2 : IVec S16x4x512x512 1 := cmpf .olt main_v0 main_v1
  let main_c : IVec S_ 1 := constantI S_ 1 1#1
  let main_v3 : IVec S_ 1 := (fun x v => Host.reduce IntOp.andi x v reducesTo_S16x4x512x512_S_d0_1_2_3 h_S_) main_v2 main_c
  main_v3
-- ==== Kernel.lean ====
abbrev S16x4x512x512 : Shape := ⟨4, ![16, 4, 512, 512]⟩
abbrev S16x512x512 : Shape := ⟨3, ![16, 512, 512]⟩
abbrev S16x1x1 : Shape := ⟨3, ![16, 1, 1]⟩
abbrev S1x4x512x512 : Shape := ⟨4, ![1, 4, 512, 512]⟩
abbrev S1x512x512 : Shape := ⟨3, ![1, 512, 512]⟩
abbrev S1x1x1 : Shape := ⟨3, ![1, 1, 1]⟩
abbrev S1x1x512x512 : Shape := ⟨4, ![1, 1, 512, 512]⟩
abbrev S1x512 : Shape := ⟨2, ![1, 512]⟩
abbrev S1x512x1 : Shape := ⟨3, ![1, 512, 1]⟩
abbrev S1x1 : Shape := ⟨2, ![1, 1]⟩
abbrev S_ : Shape := ⟨0, ![]⟩

abbrev nBuf : Space → Nat
  | .hbm => 10
  | .vmem => 10
  | .smem => 0
  | _ => 0

abbrev bufTy : (tb : Table) → Fin (tcTables nBuf tb) → BufTy
  | .hbm, ⟨0, _⟩ => ⟨S16x4x512x512, .f32⟩
  | .hbm, ⟨1, _⟩ => ⟨S16x512x512, .i32⟩
  | .hbm, ⟨2, _⟩ => ⟨S16x512x512, .i32⟩
  | .hbm, ⟨3, _⟩ => ⟨S16x1x1, .f32⟩
  | .hbm, ⟨4, _⟩ => ⟨S16x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1x4x512x512, .f32⟩
  | .local _ .vmem, ⟨1, _⟩ => ⟨S1x4x512x512, .f32⟩
  | .local _ .vmem, ⟨2, _⟩ => ⟨S1x512x512, .i32⟩
  | .local _ .vmem, ⟨3, _⟩ => ⟨S1x512x512, .i32⟩
  | .local _ .vmem, ⟨4, _⟩ => ⟨S1x512x512, .i32⟩
  | .local _ .vmem, ⟨5, _⟩ => ⟨S1x512x512, .i32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | _, _ => ⟨S16x4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x4x512x512_S1x4x512x512_0_0_0_0 : ∀ a, (![0, 0, 0, 0] : Fin 4 → Nat) a + S1x4x512x512.size a ≤ S1x4x512x512.size a
  h_S1x4x512x512 : 0 < S1x4x512x512.numel
  inb_S1x512x512_S1x512x512_0_0_0 : ∀ a, (![0, 0, 0] : Fin 3 → Nat) a + S1x512x512.size a ≤ S1x512x512.size a
  h_S1x512x512 : 0 < S1x512x512.numel
  reduces_S1x4x512x512_S1x512x512 : S1x4x512x512.Reduces [1] S1x512x512
  shapeCasts_S1x512x512_S1x1x512x512 : S1x512x512.ShapeCasts S1x1x512x512
  broadcasts_S1x1x512x512_S1x4x512x512 : S1x1x512x512.Broadcasts S1x4x512x512
  natLt_1_32 : 1 < 32
  slices_S1x4x512x512_o0_0_0_0_S1x1x512x512 : S1x4x512x512.Slices ![0, 0, 0, 0] S1x1x512x512
  shapeCasts_S1x1x512x512_S1x512x512 : S1x1x512x512.ShapeCasts S1x512x512
  slices_S1x4x512x512_o0_1_0_0_S1x1x512x512 : S1x4x512x512.Slices ![0, 1, 0, 0] S1x1x512x512
  slices_S1x4x512x512_o0_2_0_0_S1x1x512x512 : S1x4x512x512.Slices ![0, 2, 0, 0] S1x1x512x512
  slices_S1x4x512x512_o0_3_0_0_S1x1x512x512 : S1x4x512x512.Slices ![0, 3, 0, 0] S1x1x512x512
  reduces_S1x512x512_S1x512 : S1x512x512.Reduces [2] S1x512
  shapeCasts_S1x512_S1x512x1 : S1x512.ShapeCasts S1x512x1
  reduces_S1x512x1_S1x1 : S1x512x1.Reduces [1] S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S16x1x1_S_d0_1_2 : S16x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x512x512.size a ≤ S16x4x512x512.size a
  hwx0_0 : ∀ i : grid0.Coords, EltTy.bits .f32 = 32 ∨ (Rect.block (s := S16x4x512x512) S1x4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S16x512x512.size a
  hwx0_1 : ∀ i : grid0.Coords, EltTy.bits .i32 = 32 ∨ (Rect.block (s := S16x512x512) S1x512x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S16x512x512.size a
  hwx0_2 : ∀ i : grid0.Coords, EltTy.bits .i32 = 32 ∨ (Rect.block (s := S16x512x512) S1x512x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S16x1x1.size a
  hwx0_3 : ∀ i : grid0.Coords, EltTy.bits .f32 = 32 ∨ (Rect.block (s := S16x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S16x1x1.size a
  hwx0_4 : ∀ i : grid0.Coords, EltTy.bits .f32 = 32 ∨ (Rect.block (s := S16x1x1) S1x1x1.size (cc0_transform_4 i) (hinb0_4 i)).WholeWords (EltTy.packing .f32)

variable [Facts₀]

abbrev win0_0 : Pipeline.Window sig grid0 :=
  Pipeline.Window.ofSpec (Memref.whole main_arg0) S1x4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4x512x512 : Shape := ⟨4, ![16, 4, 512, 512]⟩
abbrev S16x512x512 : Shape := ⟨3, ![16, 512, 512]⟩
abbrev S_ : Shape := ⟨0, ![]⟩
abbrev S16x1x512x512 : Shape := ⟨4, ![16, 1, 512, 512]⟩
abbrev S16x1x512x512x1 : Shape := ⟨5, ![16, 1, 512, 512, 1]⟩
abbrev S1 : Shape := ⟨1, ![1]⟩
abbrev S1x1x1x1x1 : Shape := ⟨5, ![1, 1, 1, 1, 1]⟩

abbrev nBuf : Space → Nat
  | .hbm => 73
  | .vmem => 0
  | .smem => 0
  | _ => 0

abbrev bufTy : (tb : Table) → Fin (tcTables nBuf tb) → BufTy
  | .hbm, ⟨0, _⟩ => ⟨S16x4x512x512, .f32⟩
  | .hbm, ⟨1, _⟩ => ⟨S16x512x512, .i32⟩
  | .hbm, ⟨2, _⟩ => ⟨S16x512x512, .i32⟩
  | .hbm, ⟨3, _⟩ => ⟨S_, .i32⟩
  | .hbm, ⟨4, _⟩ => ⟨S16x512x512, .i32⟩
  | .hbm, ⟨5, _⟩ => ⟨S16x512x512, .i1⟩
  | .hbm, ⟨6, _⟩ => ⟨S_, .f32⟩
  | .hbm, ⟨7, _⟩ => ⟨S16x512x512, .f32⟩
  | .hbm, ⟨8, _⟩ => ⟨S_, .f32⟩
  | .hbm, ⟨9, _⟩ => ⟨S16x512x512, .f32⟩
  | .hbm, ⟨10, _⟩ => ⟨S16x512x512, .f32⟩
  | .hbm, ⟨11, _⟩ => ⟨S16x1x512x512, .f32⟩
  | .hbm, ⟨12, _⟩ => ⟨S16x4x512x512, .f32⟩
  | .hbm, ⟨13, _⟩ => ⟨S16x4x512x512, .f32⟩
  | .hbm, ⟨14, _⟩ => ⟨S16x4x512x512, .f32⟩
  | .hbm, ⟨15, _⟩ => ⟨S_, .f32⟩
  | .hbm, ⟨16, _⟩ => ⟨S16x512x512, .f32⟩
  | .hbm, ⟨17, _⟩ => ⟨S16x1x512x512, .f32⟩
  | .hbm, ⟨18, _⟩ => ⟨S16x1x512x512, .f32⟩
  | .hbm, ⟨19, _⟩ => ⟨S16x4x512x512, .f32⟩
  | .hbm, ⟨20, _⟩ => ⟨S16x4x512x512, .f32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S16x512x512, .i32⟩
  | .hbm, ⟨25, _⟩ => ⟨S16x512x512, .i32⟩
  | .hbm, ⟨26, _⟩ => ⟨S_, .i32⟩
  | .hbm, ⟨27, _⟩ => ⟨S16x512x512, .i32⟩
  | .hbm, ⟨28, _⟩ => ⟨S16x512x512, .i32⟩
  | .hbm, ⟨29, _⟩ => ⟨S16x1x512x512, .i32⟩
  | .hbm, ⟨30, _⟩ => ⟨S_, .i32⟩
  | .hbm, ⟨31, _⟩ => ⟨S16x1x512x512, .i32⟩
  | .hbm, ⟨32, _⟩ => ⟨S16x1x512x512, .i1⟩
  | .hbm, ⟨33, _⟩ => ⟨S_, .i32⟩
  | .hbm, ⟨34, _⟩ => ⟨S16x1x512x512, .i32⟩
  | .hbm, ⟨35, _⟩ => ⟨S16x1x512x512, .i32⟩
  | .hbm, ⟨36, _⟩ => ⟨S16x1x512x512, .i32⟩
  | .hbm, ⟨37, _⟩ => ⟨S16x1x512x512x1, .i32⟩
  | .hbm, ⟨38, _⟩ => ⟨S1, .i32⟩
  | .hbm, ⟨39, _⟩ => ⟨S_, .i32⟩
  | .hbm, ⟨40, _⟩ => ⟨S16x1x512x512x1, .i32⟩
  | .hbm, ⟨41, _⟩ => ⟨S16x1x512x512x1, .i1⟩
  | .hbm, ⟨42, _⟩ => ⟨S1x1x1x1x1, .i32⟩
  | .hbm, ⟨43, _⟩ => ⟨S16x1x512x512x1, .i32⟩
  | .hbm, ⟨44, _⟩ => ⟨S16x1x512x512x1, .i1⟩
  | .hbm, ⟨45, _⟩ => ⟨S16x1x512x512x1, .i1⟩
  | .hbm, ⟨46, _⟩ => ⟨S_, .i1⟩
  | .hbm, ⟨47, _⟩ => ⟨S16x1x512x512, .i1⟩
  | .hbm, ⟨48, _⟩ => ⟨S16x1x512x512, .f32⟩
  | .hbm, ⟨49, _⟩ => ⟨S_, .f32⟩
  | .hbm, ⟨50, _⟩ => ⟨S16x1x512x512, .f32⟩
  | .hbm, ⟨51, _⟩ => ⟨S16x1x512x512, .f32⟩
  | .hbm, ⟨52, _⟩ => ⟨S16x512x512, .f32⟩
  | .hbm, ⟨53, _⟩ => ⟨S16x512x512, .f32⟩
  | .hbm, ⟨54, _⟩ => ⟨S16x512x512, .f32⟩
  | .hbm, ⟨55, _⟩ => ⟨S16x512x512, .f32⟩
  | .hbm, ⟨56, _⟩ => ⟨S_, .i32⟩
  | .hbm, ⟨57, _⟩ => ⟨S16x512x512, .i32⟩
  | .hbm, ⟨58, _⟩ => ⟨S16x512x512, .i1⟩
  | .hbm, ⟨59, _⟩ => ⟨S_, .f32⟩
  | .hbm, ⟨60, _⟩ => ⟨S_, .f32⟩
  | .hbm, ⟨61, _⟩ => ⟨S16x512x512, .f32⟩
  | .hbm, ⟨62, _⟩ => ⟨S16x512x512, .f32⟩
  | .hbm, ⟨63, _⟩ => ⟨S16x512x512, .f32⟩
  | .hbm, ⟨64, _⟩ => ⟨S16x512x512, .f32⟩
  | .hbm, ⟨65, _⟩ => ⟨S16x512x512, .f32⟩
  | .hbm, ⟨66, _⟩ => ⟨S_, .f32⟩
  | .hbm, ⟨67, _⟩ => ⟨S_, .f32⟩
  | .hbm, ⟨68, _⟩ => ⟨S16x512x512, .i32⟩
  | .hbm, ⟨69, _⟩ => ⟨S_, .i32⟩
  | .hbm, ⟨70, _⟩ => ⟨S_, .i32⟩
  | .hbm, ⟨71, _⟩ => ⟨S_, .f32⟩
  | .hbm, ⟨72, _⟩ => ⟨S_, .f32⟩
  | _, _ => ⟨S16x4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v2 : Ref sig .tc := ⟨.hbm, 20, rfl⟩
abbrev main_c_0 : Ref sig .tc := ⟨.hbm, 21, rfl⟩
abbrev main_c_1 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v3 : Ref sig .tc := ⟨.hbm, 28, rfl⟩
abbrev main_v4 : Ref sig .tc := ⟨.hbm, 29, rfl⟩
abbrev main_call2_c : Ref sig .tc := ⟨.hbm, 30, rfl⟩
abbrev main_call2_v0 : Ref sig .tc := ⟨.hbm, 31, rfl⟩
abbrev main_call2_v1 : Ref sig .tc := ⟨.hbm, 32, rfl⟩
abbrev main_call2_c_0 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_c_1 : Ref sig .tc := ⟨.hbm, 38, rfl⟩
abbrev main_call2_c_2 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_3 : Ref sig .tc := ⟨.hbm, 46, rfl⟩
abbrev main_call2_v12 : Ref sig .tc := ⟨.hbm, 47, rfl⟩
abbrev main_call2_v13 : Ref sig .tc := ⟨.hbm, 48, rfl⟩
abbrev main_call2_cst : Ref sig .tc := ⟨.hbm, 49, rfl⟩
abbrev main_call2_v14 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_c_2 : Ref sig .tc := ⟨.hbm, 56, rfl⟩
abbrev main_v10 : Ref sig .tc := ⟨.hbm, 57, rfl⟩
abbrev main_v11 : Ref sig .tc := ⟨.hbm, 58, rfl⟩
abbrev main_cst : Ref sig .tc := ⟨.hbm, 59, rfl⟩
abbrev main_cst_3 : Ref sig .tc := ⟨.hbm, 60, rfl⟩
abbrev main_call3_v0 : Ref sig .tc := ⟨.hbm, 61, rfl⟩
abbrev main_call3_v1 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_cst_4 : Ref sig .tc := ⟨.hbm, 66, rfl⟩
abbrev main_v15 : Ref sig .tc := ⟨.hbm, 67, rfl⟩
abbrev main_v16 : Ref sig .tc := ⟨.hbm, 68, rfl⟩
abbrev main_c_5 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩

abbrev nD : Nat := 1
abbrev τ : Topo := Topo.v7x

variable {F : FTy → Type} [FloatOps F]

class Facts₀ : Prop where
  bcast_S_S16x512x512 : S_.BroadcastsInDim S16x512x512 (![] : Fin 0 → Fin S16x512x512.rank)
  reducesTo_S16x4x512x512_S16x512x512_d1 : S16x4x512x512.ReducesTo [1] S16x512x512
  h_S_ : 0 < S_.numel
  bcast_S16x512x512_S16x1x512x512_0_2_3 : S16x512x512.BroadcastsInDim S16x1x512x512 (![0, 2, 3] : Fin 3 → Fin S16x1x512x512.rank)
  bcast_S16x1x512x512_S16x4x512x512_0_1_2_3 : S16x1x512x512.BroadcastsInDim S16x4x512x512 (![0, 1, 2, 3] : Fin 4 → Fin S16x4x512x512.rank)
  bcast_S_S16x1x512x512 : S_.BroadcastsInDim S16x1x512x512 (![] : Fin 0 → Fin S16x1x512x512.rank)
  shapeCasts_S16x1x512x512_S16x1x512x512x1 : S16x1x512x512.ShapeCasts S16x1x512x512x1
  bcast_S_S16x1x512x512x1 : S_.BroadcastsInDim S16x1x512x512x1 (![] : Fin 0 → Fin S16x1x512x512x1.rank)
  bcast_S1_S1x1x1x1x1_4 : S1.BroadcastsInDim S1x1x1x1x1 (![4] : Fin 1 → Fin S1x1x1x1x1.rank)
  bcast_S1x1x1x1x1_S16x1x512x512x1_0_1_2_3_4 : S1x1x1x1x1.BroadcastsInDim S16x1x512x512x1 (![0, 1, 2, 3, 4] : Fin 5 → Fin S16x1x512x512x1.rank)
  reducesTo_S16x1x512x512x1_S16x1x512x512_d4 : S16x1x512x512x1.ReducesTo [4] S16x1x512x512
  shapeCasts_S16x1x512x512_S16x512x512 : S16x1x512x512.ShapeCasts S16x512x512
  reducesTo_S16x512x512_S_d0_1_2 : S16x512x512.ReducesTo [0, 1, 2] S_
  natLt_1_32 : 1 < 32
  gather_S16x4x512x512_S16x1x512x512x1_S16x1x512x512_n_1_023_023_1_4_1111_wf : GatherDims.WF S16x4x512x512 S16x1x512x512x1 S16x1x512x512 [] [1] [0, 2, 3] [1] [0, 2, 3] 4 ![1, 1, 1, 1]

variable [Facts₀]

def gather_S16x4x512x512_S16x1x512x512x1_S16x1x512x512_n_1_023_023_1_4_1111 : GatherDims S16x4x512x512 S16x1x512x512x1 S16x1x512x512 where
  offsetDims := []
  collapsedSliceDims := [1]
  operandBatchingDims := [0, 2, 3]
  startIndicesBatchingDims := [0, 2, 3]
  startIndexMap := [1]
  indexVectorDim := 4
  sliceSizes := ![1, 1, 1, 1]
  wf := gather_S16x4x512x512_S16x1x512x512x1_S16x1x512x512_n_1_023_023_1_4_1111_wf

class Facts : Prop extends Facts₀ where

variable [Facts]
-- ==== Proof.Spec.lean ====
/-
  The weighted cross-entropy with an ignored class, as ONE function of the three argument arrays.

  For a pixel i = (b, h, w) of a [16, 512, 512] image batch with four class logits x(b, k, h, w):
    top i        the largest of the four logits (a fold of max from the −∞ pattern),
    shifted i k  x(b, k, h, w) − top i,
    lse i        log (∑ₖ exp (shifted i k)),
    cls t        the target word t clamped into 0 … 3, as a class,
    term i       weight · (lse i − shifted i (cls t)) where the target is not the ignored class 4, else 0,
                 the weight 1 where the ME word is 0 and 1/2 elsewhere,
    loss         (∑ᵢ term i) / (the number of pixels whose target is not 4).
  Both programs compute `loss`: one picks the target's shifted logit by a four-way one-hot sum and sums block by
  block, the other gathers it along the class axis, multiplies by the 0/1 mask and sums everything at once, counting
  the mask in integers. The lemmas below are the facts on words and extended reals that join the two spellings.
-/
import Idealize.ShloMosaic.PureOps.Ideal
import Idealize.ShloMosaic.PureOps.Ideal.Laws
import Idealize.ShloMosaic.Lib.ValueIdx
import Idealize.ShloMosaic.Lib.WordArith
import Idealize.ShloMosaic.Lib.IndicatorCount

noncomputable section

open scoped BigOperators

namespace Cert.Loss

open Idealize.ShloMosaic Idealize.ShloMosaic.ValueIdx

/-- The logits' shape: batch, class, row, column. -/
abbrev SLog : Shape := ⟨4, ![16, 4, 512, 512]⟩
/-- A pixel's shape: batch, row, column. -/
abbrev SPix : Shape := ⟨3, ![16, 512, 512]⟩

/-- The f32 pattern of −∞, the value both maxima start from. -/
abbrev negInf : EReal := Ideal.ofBits .f32 0xFF800000#32

theorem negInf_eq : negInf = ⊥ := by simp [negInf, Ideal.ofBits, Ideal.ieee]

/-- Class k's logit at pixel i. -/
def logit (x : SLog.Idx → EReal) (i : SPix.Idx) (k : Fin 4) : EReal := x (ix4 (i 0) k (i 1) (i 2))

/-- The largest logit at pixel i. -/
def top (x : SLog.Idx → EReal) (i : SPix.Idx) : EReal := (Finset.univ : Finset (Fin 4)).fold max negInf (logit x i)

/-- The logit less the largest one. -/
def shifted (x : SLog.Idx → EReal) (i : SPix.Idx) (k : Fin 4) : EReal := logit x i k - top x i

/-- log ∑ exp of the shifted logits. -/
def lse (x : SLog.Idx → EReal) (i : SPix.Idx) : EReal := Ideal.log (∑ k : Fin 4, Ideal.exp (shifted x i k))

/-- A target word clamped into 0 … 3 (signed). -/
def clip (t : BitVec 32) : BitVec 32 := IntOp.minsi 3#32 (IntOp.maxsi 0#32 t)

/-- The clamp of any word is one of the four class words. -/
theorem clip_cases (t : BitVec 32) : clip t = 0#32 ∨ clip t = 1#32 ∨ clip t = 2#32 ∨ clip t = 3#32 := by
  have h1 : (IntOp.maxsi 0#32 t).toNat < 2 ^ 31 := by
    have := WordArith.two_mul_toNat_maxsi_zero_lt t
    simp only [Scalar.maxsi] at this
    omega
  have h2 : (clip t).toNat = min (3#32 : BitVec 32).toNat (IntOp.maxsi 0#32 t).toNat :=
    WordArith.toNat_minsi_of_lt 3#32 (IntOp.maxsi 0#32 t) (by decide) h1
  have h3 : (clip t).toNat ≤ 3 := by rw [h2]; exact Nat.min_le_left _ _
  have h4 : (clip t).toNat = 0 ∨ (clip t).toNat = 1 ∨ (clip t).toNat = 2 ∨ (clip t).toNat = 3 := by omega
  rcases h4 with h | h | h | h
  · exact Or.inl (BitVec.eq_of_toNat_eq h)
  · exact Or.inr (Or.inl (BitVec.eq_of_toNat_eq h))
  · exact Or.inr (Or.inr (Or.inl (BitVec.eq_of_toNat_eq h)))
  · exact Or.inr (Or.inr (Or.inr (BitVec.eq_of_toNat_eq h)))

theorem clip_lt (t : BitVec 32) : (clip t).toNat < 4 := by
  rcases clip_cases t with h | h | h | h <;> rw [h] <;> decide

/-- The clamped target as a class. -/
def cls (t : BitVec 32) : Fin 4 := ⟨(clip t).toNat, clip_lt t⟩

/-- The bit "the target is not the ignored class". -/
def live (t : BitVec 32) : BitVec 1 := IntOp.cmpi .ne t 4#32

/-- The pixel's weight: 1 where the ME word is 0, else 1/2 (as the two f32 patterns). -/
def weight (e : BitVec 32) : EReal :=
  Scalar.select (IntOp.cmpi .eq e 0#32) (Ideal.ofBits .f32 0x3F800000#32) (Ideal.ofBits .f32 0x3F000000#32)

/-- The pixel's contribution to the numerator. -/
def term (x : SLog.Idx → EReal) (tg me : SPix.Idx → BitVec 32) (i : SPix.Idx) : EReal :=
  Scalar.select (live (tg i)) (weight (me i) * (lse x i - shifted x i (cls (tg i)))) (Ideal.ofBits .f32 0x00000000#32)

/-- The numerator: every pixel's contribution. -/
def num (x : SLog.Idx → EReal) (tg me : SPix.Idx → BitVec 32) : EReal := ∑ i : SPix.Idx, term x tg me i

/-- The denominator: the number of pixels that count, as a sum of their 0/1 bits. -/
def den (tg : SPix.Idx → BitVec 32) : EReal := ∑ i : SPix.Idx, (((live (tg i)).toNat : ℝ) : EReal)

/-- The loss. -/
def loss (x : SLog.Idx → EReal) (tg me : SPix.Idx → BitVec 32) : EReal := Ideal.div (num x tg me) (den tg)

end Cert.Loss

end
-- ==== Proof.Pixel.lean ====
/-
  The loss's summand at one pixel as a function of that pixel's four logits and its two words, the one-hot sum that
  picks the target's entry, and the two regroupings of sums by coordinates the block-by-block summation needs.
-/
import proofs.«418493_j18562848654175_3_alg».proof.Proof.Spec

noncomputable section

open scoped BigOperators

namespace Cert.Loss

open Idealize.ShloMosaic Idealize.ShloMosaic.ValueIdx

/-- The largest of four logits. -/
def top4 (l : Fin 4 → EReal) : EReal := (Finset.univ : Finset (Fin 4)).fold max negInf l

/-- A pixel's contribution from its four logits `l`, its target word `t` and its ME word `e`. -/
def pix (l : Fin 4 → EReal) (t e : BitVec 32) : EReal :=
  Scalar.select (live t)
    (weight e * (Ideal.log (∑ k : Fin 4, Ideal.exp (l k - top4 l)) - (l (cls t) - top4 l)))
    (Ideal.ofBits .f32 0x00000000#32)

/-- `term` is `pix` of the pixel's logits and words. -/
theorem term_eq_pix (x : SLog.Idx → EReal) (tg me : SPix.Idx → BitVec 32) (i : SPix.Idx) :
    term x tg me i = pix (logit x i) (tg i) (me i) := rfl

/-- The pixel's 0/1 bit "counts" as an extended real. -/
def bitE (t : BitVec 32) : EReal := (((live t).toNat : ℝ) : EReal)

/-- The indicator "the clamped class word `c` is `k`", widened to a word and read signed, as an extended real. -/
def onehot (c k : BitVec 32) : EReal := ((((IntOp.cmpi .eq c k).setWidth 32).toInt : ℝ) : EReal)

theorem onehot_self (c : BitVec 32) : onehot c c = 1 := by
  have h : IntOp.cmpi .eq c c = 1#1 := by simp [IntOp.cmpi]
  unfold onehot; rw [h]
  have : ((1#1 : BitVec 1).setWidth 32).toInt = 1 := by decide
  rw [this]; norm_num

theorem onehot_ne {c k : BitVec 32} (h : c ≠ k) : onehot c k = 0 := by
  have h' : IntOp.cmpi .eq c k = 0#1 := by
    have hb : (c == k) = false := beq_eq_false_iff_ne.mpr h
    show BitVec.ofBool (c == k) = 0#1
    rw [hb]; rfl
  unfold onehot; rw [h']
  have : ((0#1 : BitVec 1).setWidth 32).toInt = 0 := by decide
  rw [this]; norm_num

/-- The four-way one-hot sum from zero picks the entry of the clamped class. -/
theorem pick (s : Fin 4 → EReal) (t : BitVec 32) :
    Ideal.ofBits .f32 0x00000000#32 + onehot (clip t) 0#32 * s 0 + onehot (clip t) 1#32 * s 1
      + onehot (clip t) 2#32 * s 2 + onehot (clip t) 3#32 * s 3 = s (cls t) := by
  rw [Ideal.ofBits_zero_f32]
  rcases clip_cases t with h | h | h | h
  · have hc : cls t = 0 := Fin.ext (by simp [cls, h])
    rw [hc, h, onehot_self, onehot_ne (by decide), onehot_ne (by decide), onehot_ne (by decide)]
    simp
  · have hc : cls t = 1 := Fin.ext (by simp [cls, h])
    rw [hc, h, onehot_self, onehot_ne (by decide), onehot_ne (by decide), onehot_ne (by decide)]
    simp
  · have hc : cls t = 2 := Fin.ext (by simp [cls, h])
    rw [hc, h, onehot_self, onehot_ne (by decide), onehot_ne (by decide), onehot_ne (by decide)]
    simp
  · have hc : cls t = 3 := Fin.ext (by simp [cls, h])
    rw [hc, h, onehot_self, onehot_ne (by decide), onehot_ne (by decide), onehot_ne (by decide)]
    simp

/-- A pixel index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over a range of one element is its term. -/
theorem sum_fin_one {M : Type*} [AddCommMonoid M] (f : Fin 1 → M) : ∑ a : Fin 1, f a = f 0 := by
  simp

end Cert.Loss

end
-- ==== Proof.KernelPay.lean ====
/-
  The kernel body's arithmetic read at an index. For the logits block x0 : [1, 4, 512, 512] and the two word blocks
  x1, x2 : [1, 512, 512] of one batch entry, at row h and column w:
    the shifted logits are x0(0, k, h, w) less the largest of the four (a lane maximum from −∞, cast and broadcast back),
    the log-sum-exp is log of the lane sum of their exponentials,
    the clamped target is the word clamped into 0 … 3,
    the first three one-hot terms are accumulated from zero.
-/
import proofs.«418493_j18562848654175_3_alg».proof.Proof.Gen.KernelIdeal.Skeleton
import proofs.«418493_j18562848654175_3_alg».proof.Proof.Pixel
import Idealize.ShloMosaic.Lib.Pipeline.Value
import Idealize.ShloMosaic.Lib.ValueLayout
import Idealize.ShloMosaic.PureOps.Ideal.Laws
import Idealize.ShloMosaic.Lib.ValueIdx
import Idealize.ShloMosaic.Lib.KernelVsHost

noncomputable section

open scoped BigOperators

namespace Cert.KernelIdeal.Pay

open Cert.KernelIdeal Cert.KernelIdeal.Gen Idealize.ShloMosaic Idealize.ShloMosaic.ValueIdx Cert.Loss

/-- The four logits of the block at row h, column w. -/
def lg (x0 : Vec Ideal S1x4x512x512 .f32) (h w : Fin 512) : Fin 4 → EReal := fun k => x0 (ix4 (0 : Fin 1) k h w)

/-- The lane maximum over the class axis, read at (0, h, w): the largest of the four logits there. -/
theorem max_at (x0 : Vec Ideal S1x4x512x512 .f32) (h w : Fin 512) :
    multiReduction (F := Ideal) .maximumf [1] S1x512x512 x0 0xFF800000#32 reduces_S1x4x512x512_S1x512x512 (.inl rfl) rfl
      (ix3 (0 : Fin 1) h w) = top4 (lg x0 h w) := by
  refine (Ideal.multiReduction_maximumf_single x0 _ reduces_S1x4x512x512_S1x512x512 (.inl rfl) rfl (ix3 (0 : Fin 1) h w)).trans ?_
  unfold top4 negInf
  refine congrArg (Finset.fold max (Ideal.ofBits .f32 0xFF800000#32) · Finset.univ) ?_
  funext k
  show x0 _ = x0 _
  refine congrArg x0 (funext fun a => Fin.ext ?_)
  match a with
  | ⟨0, _⟩ => rfl
  | ⟨1, _⟩ => rfl
  | ⟨2, _⟩ => rfl
  | ⟨3, _⟩ => rfl

/-- The shifted logits at (0, k, h, w). -/
theorem pay4_at (x0 : Vec Ideal S1x4x512x512 .f32) (k : Fin 4) (h w : Fin 512) :
    k0_pay4 (F := Ideal) x0 (ix4 (0 : Fin 1) k h w) = lg x0 h w k - top4 (lg x0 h w) := by
  unfold k0_pay4
  dsimp only
  refine (subf_apply _ _ _).trans ?_
  refine congrArg (lg x0 h w k - ·) ?_
  refine (broadcastTo_apply _ broadcasts_S1x1x512x512_S1x4x512x512 (ix4 (0 : Fin 1) k h w) (ix4 (0 : Fin 1) (0 : Fin 1) h w)
    (fun a => by match a with | ⟨0, _⟩ => rfl | ⟨1, _⟩ => rfl | ⟨2, _⟩ => rfl | ⟨3, _⟩ => rfl)).trans ?_
  refine (shapeCast_abc_1abc_apply _ shapeCasts_S1x512x512_S1x1x512x512 (0 : Fin 1) (0 : Fin 1) h w).trans ?_
  exact max_at x0 h w

/-- The log of the lane sum of the exponentials, read at (0, 0, h, w). -/
theorem pay5_at (x0 : Vec Ideal S1x4x512x512 .f32) (h w : Fin 512) :
    k0_pay5 (F := Ideal) x0 (ix4 (0 : Fin 1) (0 : Fin 1) h w)
      = Ideal.log (∑ k : Fin 4, Ideal.exp (lg x0 h w k - top4 (lg x0 h w))) := by
  unfold k0_pay5
  dsimp only
  show Ideal.log _ = Ideal.log _
  refine congrArg Ideal.log ?_
  refine (shapeCast_abc_1abc_apply _ shapeCasts_S1x512x512_S1x1x512x512 (0 : Fin 1) (0 : Fin 1) h w).trans ?_
  refine (Ideal.multiReduction_add_single _ _ reduces_S1x4x512x512_S1x512x512 (.inl rfl) rfl (ix3 (0 : Fin 1) h w)).trans ?_
  refine Finset.sum_congr rfl fun k _ => ?_
  show Ideal.exp (k0_pay4 (F := Ideal) x0 _) = _
  refine congrArg Ideal.exp ?_
  refine (congrArg (k0_pay4 (F := Ideal) x0) (funext fun a => Fin.ext ?_)).trans (pay4_at x0 k h w)
  match a with
  | ⟨0, _⟩ => rfl
  | ⟨1, _⟩ => rfl
  | ⟨2, _⟩ => rfl
  | ⟨3, _⟩ => rfl

/-- The clamped target word at (0, h, w). -/
theorem pay6_at (x1 : Vec Ideal S1x512x512 .i32) (h w : Fin 512) :
    k0_pay6 (F := Ideal) x1 (ix3 (0 : Fin 1) h w) = clip (x1 (ix3 (0 : Fin 1) h w)) := rfl

/-- Class kk's plane of a [1, 4, 512, 512] vector, sliced out and cast to [1, 512, 512], read at (0, h, w). -/
theorem plane_at (v : FVec Ideal S1x4x512x512 .f32) (off : Fin 4 → Nat) (hs : S1x4x512x512.Slices off S1x1x512x512)
    (kk : Fin 4) (h0 : off 0 = 0) (h1 : off 1 = kk.val) (h2 : off 2 = 0) (h3 : off 3 = 0) (h w : Fin 512) :
    shapeCast S1x512x512 (extractStridedSlice S1x1x512x512 off v hs) shapeCasts_S1x1x512x512_S1x512x512 (ix3 (0 : Fin 1) h w)
      = v (ix4 (0 : Fin 1) kk h w) := by
  refine (shapeCast_1abc_abc_apply _ shapeCasts_S1x1x512x512_S1x512x512 (0 : Fin 1) h w).trans ?_
  refine extractStridedSlice_apply off v hs _ _ fun a => ?_
  match a with
  | ⟨0, _⟩ => show 0 = off 0 + 0; omega
  | ⟨1, _⟩ => show kk.val = off 1 + 0; omega
  | ⟨2, _⟩ => show h.val = off 2 + h.val; omega
  | ⟨3, _⟩ => show w.val = off 3 + w.val; omega

/-- The shifted logit of class k at the pixel. -/
def sh (x0 : Vec Ideal S1x4x512x512 .f32) (h w : Fin 512) (k : Fin 4) : EReal := lg x0 h w k - top4 (lg x0 h w)

/-- The one-hot sum's first three terms, accumulated from zero, at (0, h, w). -/
theorem pay7_at (x0 : Vec Ideal S1x4x512x512 .f32) (x1 : Vec Ideal S1x512x512 .i32) (h w : Fin 512) :
    k0_pay7 (F := Ideal) x0 x1 (ix3 (0 : Fin 1) h w)
      = Ideal.ofBits .f32 0x00000000#32 + onehot (clip (x1 (ix3 (0 : Fin 1) h w))) 0#32 * sh x0 h w 0
        + onehot (clip (x1 (ix3 (0 : Fin 1) h w))) 1#32 * sh x0 h w 1
        + onehot (clip (x1 (ix3 (0 : Fin 1) h w))) 2#32 * sh x0 h w 2 := by
  unfold k0_pay7
  refine congrArg₂ (· + ·) (congrArg₂ (· + ·) (congrArg₂ (· + ·) rfl ?_) ?_) ?_
  · refine congrArg (onehot (clip (x1 (ix3 (0 : Fin 1) h w))) 0#32 * ·) ?_
    exact (plane_at _ _ slices_S1x4x512x512_o0_0_0_0_S1x1x512x512 0 rfl rfl rfl rfl h w).trans (pay4_at x0 0 h w)
  · refine congrArg (onehot (clip (x1 (ix3 (0 : Fin 1) h w))) 1#32 * ·) ?_
    exact (plane_at _ _ slices_S1x4x512x512_o0_1_0_0_S1x1x512x512 1 rfl rfl rfl rfl h w).trans (pay4_at x0 1 h w)
  · refine congrArg (onehot (clip (x1 (ix3 (0 : Fin 1) h w))) 2#32 * ·) ?_
    exact (plane_at _ _ slices_S1x4x512x512_o0_2_0_0_S1x1x512x512 2 rfl rfl rfl rfl h w).trans (pay4_at x0 2 h w)

/-- The pixel's contribution as the body computes it — the weight times the log-sum-exp less the completed one-hot sum,
    selected where the target counts — is `pix` of the pixel's logits and words. -/
theorem pixel_at (x0 : Vec Ideal S1x4x512x512 .f32) (x1 x2 : Vec Ideal S1x512x512 .i32) (h w : Fin 512) :
    Scalar.select (live (x1 (ix3 (0 : Fin 1) h w)))
      (weight (x2 (ix3 (0 : Fin 1) h w)) *
        (shapeCast S1x512x512 (k0_pay5 (F := Ideal) x0) shapeCasts_S1x1x512x512_S1x512x512 (ix3 (0 : Fin 1) h w)
          - (k0_pay7 (F := Ideal) x0 x1 (ix3 (0 : Fin 1) h w)
              + onehot (clip (x1 (ix3 (0 : Fin 1) h w))) 3#32 *
                shapeCast S1x512x512 (extractStridedSlice S1x1x512x512 ![0, 3, 0, 0] (k0_pay4 (F := Ideal) x0)
                  slices_S1x4x512x512_o0_3_0_0_S1x1x512x512) shapeCasts_S1x1x512x512_S1x512x512 (ix3 (0 : Fin 1) h w))))
      (Ideal.ofBits .f32 0x00000000#32)
    = pix (lg x0 h w) (x1 (ix3 (0 : Fin 1) h w)) (x2 (ix3 (0 : Fin 1) h w)) := by
  rw [shapeCast_1abc_abc_apply (k0_pay5 (F := Ideal) x0) shapeCasts_S1x1x512x512_S1x512x512 (0 : Fin 1) h w, pay5_at, pay7_at,
    plane_at (k0_pay4 (F := Ideal) x0) _ slices_S1x4x512x512_o0_3_0_0_S1x1x512x512 3 rfl rfl rfl rfl h w, pay4_at]
  unfold pix
  rw [show lg x0 h w 3 - top4 (lg x0 h w) = sh x0 h w 3 from rfl, pick (sh x0 h w)]
  rfl

/-- A [1, 512, 512] vector summed over its columns, then over its rows (each time keeping a unit axis), is the double
    sum of its entries. -/
theorem block_sum (v : FVec Ideal S1x512x512 .f32) (y : S1x1x1.Idx) :
    shapeCast S1x1x1 (multiReduction (F := Ideal) .add [1] S1x1
        (shapeCast S1x512x1 (multiReduction (F := Ideal) .add [2] S1x512 v 0x00000000#32 reduces_S1x512x512_S1x512 (.inl rfl) rfl)
          shapeCasts_S1x512_S1x512x1)
        0x00000000#32 reduces_S1x512x1_S1x1 (.inl rfl) rfl) shapeCasts_S1x1_S1x1x1 y
      = ∑ h : Fin 512, ∑ w : Fin 512, v (ix3 (0 : Fin 1) h w) := by
  have hy : y = ix3 (0 : Fin 1) (0 : Fin 1) (0 : Fin 1) := by
    funext a
    match a with
    | ⟨0, _⟩ => exact Fin.ext (Nat.lt_one_iff.mp (y 0).isLt)
    | ⟨1, _⟩ => exact Fin.ext (Nat.lt_one_iff.mp (y 1).isLt)
    | ⟨2, _⟩ => exact Fin.ext (Nat.lt_one_iff.mp (y 2).isLt)
  rw [hy]
  refine (shapeCast_ab_1ab_apply _ shapeCasts_S1x1_S1x1x1 (0 : Fin 1) (0 : Fin 1) (0 : Fin 1)).trans ?_
  refine (Ideal.multiReduction_add_single _ _ reduces_S1x512x1_S1x1 (.inl rfl) rfl (ix2 (0 : Fin 1) (0 : Fin 1))).trans ?_
  refine Fintype.sum_congr _ _ fun (hh : Fin 512) => ?_
  refine (shapeCast_apply _ shapeCasts_S1x512_S1x512x1 _ (ix2 (0 : Fin 1) hh) ?_).trans ?_
  · rw [Shape.rowMajor_val_two, Shape.rowMajor_val_three]
    show 0 * 512 + hh.val = (0 * 512 + hh.val) * 1 + 0
    omega
  refine (Ideal.multiReduction_add_single _ _ reduces_S1x512x512_S1x512 (.inl rfl) rfl (ix2 (0 : Fin 1) hh)).trans ?_
  refine Fintype.sum_congr _ _ fun (ww : Fin 512) => ?_
  refine congrArg v (funext fun a => Fin.ext ?_)
  match a with
  | ⟨0, _⟩ => rfl
  | ⟨1, _⟩ => rfl
  | ⟨2, _⟩ => rfl

/-- What the body stores to the first result's block: the block's pixels' contributions, summed. -/
theorem pay2_at (x0 : Vec Ideal S1x4x512x512 .f32) (x1 x2 : Vec Ideal S1x512x512 .i32) (y : S1x1x1.Idx) :
    k0_pay2 (F := Ideal) x1 x2 (k0_pay4 (F := Ideal) x0) (k0_pay5 (F := Ideal) x0) (k0_pay6 (F := Ideal) x1)
        (k0_pay7 (F := Ideal) x0 x1) 3#32 y
      = ∑ h : Fin 512, ∑ w : Fin 512, pix (lg x0 h w) (x1 (ix3 (0 : Fin 1) h w)) (x2 (ix3 (0 : Fin 1) h w)) := by
  unfold k0_pay2
  refine (block_sum _ y).trans ?_
  refine Fintype.sum_congr _ _ fun h => Fintype.sum_congr _ _ fun w => ?_
  exact pixel_at x0 x1 x2 h w

/-- What the body stores to the second result's block: the number of the block's pixels that count, as a sum of bits. -/
theorem pay3_at (x1 : Vec Ideal S1x512x512 .i32) (y : S1x1x1.Idx) :
    k0_pay3 (F := Ideal) x1 y = ∑ h : Fin 512, ∑ w : Fin 512, bitE (x1 (ix3 (0 : Fin 1) h w)) := by
  unfold k0_pay3
  refine (block_sum _ y).trans ?_
  refine Fintype.sum_congr _ _ fun h => Fintype.sum_congr _ _ fun w => ?_
  show ((((IntOp.cmpi .ne (x1 (ix3 (0 : Fin 1) h w)) 4#32).setWidth 32).toInt : ℝ) : EReal) = bitE (x1 (ix3 (0 : Fin 1) h w))
  unfold bitE live
  rw [toInt_setWidth_bit]
  norm_cast

end Cert.KernelIdeal.Pay

end
-- ==== Proof.KernelValue.lean ====
/-
  What the kernel's program leaves in its result. Grid point t handles batch entry t: its three input blocks are the
  entry's logits and words, and it writes ONE element to each of two [16, 1, 1] arrays: the sum over the entry's
  512 × 512 pixels of their contributions, and the number of its pixels that count. The sixteen blocks cover both
  arrays, so after the region they hold those sums entry by entry; the host lines after it sum each array over the
  entries from zero and divide: the loss.
-/
import proofs.«418493_j18562848654175_3_alg».proof.Proof.Gen.KernelIdeal.Frame
import proofs.«418493_j18562848654175_3_alg».proof.Proof.KernelPay
import Idealize.ShloMosaic.Lib.Pipeline.Value
import Idealize.ShloMosaic.Lib.StableHlo.Run

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx Cert.Loss Cert.KernelIdeal.Pay
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Batch entry b's part of the numerator. -/
def rowNum (x : SLog.Idx → EReal) (tg me : SPix.Idx → BitVec 32) (b : Fin 16) : EReal :=
  ∑ h : Fin 512, ∑ w : Fin 512, term x tg me (ix3 b h w)

/-- Batch entry b's part of the count. -/
def rowDen (tg : SPix.Idx → BitVec 32) (b : Fin 16) : EReal := ∑ h : Fin 512, ∑ w : Fin 512, bitE (tg (ix3 b h w))

/-- The first result array: entry by entry the numerator's parts. -/
def G3 (x : SLog.Idx → EReal) (tg me : SPix.Idx → BitVec 32) : S16x1x1.Idx → EReal :=
  fun j => rowNum x tg me ⟨(j 0).val, (j 0).isLt⟩

/-- The second result array: entry by entry the count's parts. -/
def G4 (tg : SPix.Idx → BitVec 32) : S16x1x1.Idx → EReal := fun j => rowDen tg ⟨(j 0).val, (j 0).isLt⟩

/-- The printed index maps, decided over the sixteen points: every window's block index is (t, 0, …). -/
theorem idx_facts : ∀ t : Fin cfg0.N,
    win0_0.index t (0 : Fin 4) = win0_3.index t (0 : Fin 3) ∧ win0_0.index t (1 : Fin 4) = 0 ∧ win0_0.index t (2 : Fin 4) = 0
    ∧ win0_0.index t (3 : Fin 4) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (1 : Fin 3) = 0 ∧ win0_3.index t (2 : Fin 3) = 0 ∧ win0_3.index t (0 : Fin 3) < 16
    ∧ win0_4.index t (0 : Fin 3) = win0_3.index t (0 : Fin 3) ∧ win0_4.index t (1 : Fin 3) = 0 ∧ win0_4.index t (2 : Fin 3) = 0 :=
  (by decide +kernel : ∀ t : Fin grid0.N, _)

/-- Every batch entry is some point's. -/
theorem idx_onto : ∀ q : Fin 16, ∃ t : Fin cfg0.N, win0_3.index t = ![q.val, 0, 0] ∧ win0_4.index t = ![q.val, 0, 0] :=
  (by decide +kernel : ∀ q : Fin 16, ∃ t : Fin grid0.N, win0_3.index t = ![q.val, 0, 0] ∧ win0_4.index t = ![q.val, 0, 0])

/-- The pixel (h, w) of point t's blocks is the pixel (t, h, w) of the arrays: its contribution. -/
theorem pix_blk (c : Dev nD) (t : Fin cfg0.N) (b : Fin 16) (hb : b.val = win0_3.index t (0 : Fin 3)) (h w : Fin 512) :
    pix (lg (iblk m c 0 t) h w) (iblk m c 1 t (ix3 (0 : Fin 1) h w)) (iblk m c 2 t (ix3 (0 : Fin 1) h w))
      = term (V m c main_arg0) (V m c main_arg1) (V m c main_arg2) (ix3 b h w) := by
  obtain ⟨e00, e01, e02, e03, e10, e11, e12, e20, e21, e22, e31, e32, e3lt, e40, e41, e42⟩ := idx_facts t
  rw [term_eq_pix]
  have hh : h.val < 512 := h.isLt
  have hw : w.val < 512 := w.isLt
  have a0 : lg (iblk m c 0 t) h w = logit (V m c main_arg0) (ix3 b h w) := by
    funext k
    have hk : k.val < 4 := k.isLt
    show V m c main_arg0 (((cfg0.win 0).blk t).view.emb (ix4 (0 : Fin 1) k h w)) = V m c main_arg0 (ix4 b k h w)
    refine congrArg (V m c main_arg0) (funext fun a => Fin.ext ?_)
    match a with
    | ⟨0, _⟩ => show win0_0.index t (0 : Fin 4) * 1 + 1 * 0 = b.val; omega
    | ⟨1, _⟩ => show win0_0.index t (1 : Fin 4) * 4 + 1 * k.val = k.val; omega
    | ⟨2, _⟩ => show win0_0.index t (2 : Fin 4) * 512 + 1 * h.val = h.val; omega
    | ⟨3, _⟩ => show win0_0.index t (3 : Fin 4) * 512 + 1 * w.val = w.val; omega
  have a1 : iblk m c 1 t (ix3 (0 : Fin 1) h w) = V m c main_arg1 (ix3 b h w) := by
    show V m c main_arg1 (((cfg0.win 1).blk t).view.emb (ix3 (0 : Fin 1) h w)) = V m c main_arg1 (ix3 b h w)
    refine congrArg (V m c main_arg1) (funext fun a => Fin.ext ?_)
    match a with
    | ⟨0, _⟩ => show win0_1.index t (0 : Fin 3) * 1 + 1 * 0 = b.val; omega
    | ⟨1, _⟩ => show win0_1.index t (1 : Fin 3) * 512 + 1 * h.val = h.val; omega
    | ⟨2, _⟩ => show win0_1.index t (2 : Fin 3) * 512 + 1 * w.val = w.val; omega
  have a2 : iblk m c 2 t (ix3 (0 : Fin 1) h w) = V m c main_arg2 (ix3 b h w) := by
    show V m c main_arg2 (((cfg0.win 2).blk t).view.emb (ix3 (0 : Fin 1) h w)) = V m c main_arg2 (ix3 b h w)
    refine congrArg (V m c main_arg2) (funext fun a => Fin.ext ?_)
    match a with
    | ⟨0, _⟩ => show win0_2.index t (0 : Fin 3) * 1 + 1 * 0 = b.val; omega
    | ⟨1, _⟩ => show win0_2.index t (1 : Fin 3) * 512 + 1 * h.val = h.val; omega
    | ⟨2, _⟩ => show win0_2.index t (2 : Fin 3) * 512 + 1 * w.val = w.val; omega
  exact congr (congr (congrArg pix a0) a1) a2

/-- WHAT POINT t WRITES BACK to the first result: block t of `G3`. -/
theorem flushed3_eq (c : Dev nD) (t : Fin cfg0.N) :
    (dats m 0 c).flushed 3 t
      = ((cfg0.win 3).blk t).view.read (Elt Ideal) (G3 (V m c main_arg0) (V m c main_arg1) (V m c main_arg2)) := by
  show (cfg0.win 3).cut (grid0.coords t) ((dats m 0 c).after 3 t) = _
  rw [after0_3]
  unfold out0_3
  rw [View.canon_unit_zero hz3]
  simp only [View.ld_unit_zero (S := S1x4x512x512) hz4, View.ld_unit_zero (S := S1x512x512) hz3]
  funext y
  have hy0 : (y 0).val < 1 := (y 0).isLt
  show k0_pay2 (F := Ideal) (iblk m c 1 t) (iblk m c 2 t) (k0_pay4 (F := Ideal) (iblk m c 0 t)) (k0_pay5 (F := Ideal) (iblk m c 0 t))
      (k0_pay6 (F := Ideal) (iblk m c 1 t)) (k0_pay7 (F := Ideal) (iblk m c 0 t) (iblk m c 1 t)) 3#32 y
    = rowNum (V m c main_arg0) (V m c main_arg1) (V m c main_arg2) ⟨((((cfg0.win 3).blk t).view.emb y) 0).val, _⟩
  refine (pay2_at (iblk m c 0 t) (iblk m c 1 t) (iblk m c 2 t) y).trans ?_
  unfold rowNum
  refine Fintype.sum_congr _ _ fun h => Fintype.sum_congr _ _ fun w => ?_
  refine pix_blk m c t _ ?_ h w
  show win0_3.index t (0 : Fin 3) * 1 + 1 * (y 0).val = win0_3.index t (0 : Fin 3)
  omega

/-- An element of point t's block of a [16, 1, 1] array is the array at the element's place in it. -/
theorem read4 (G : S16x1x1.Idx → EReal) (t : Fin cfg0.N) (y : ((cfg0.win 4).xblock (cfg0.grid.coords t)).Idx) :
    ((cfg0.win 4).blk t).view.read (Elt Ideal) G y = G (((cfg0.win 4).blk t).view.emb y) := rfl

/-- The pixel (h, w) of point t's target block is the pixel (t, h, w) of the target array: its bit. -/
theorem bit_blk (c : Dev nD) (t : Fin cfg0.N) (b : Fin 16) (hb : b.val = win0_4.index t (0 : Fin 3)) (h w : Fin 512) :
    bitE (iblk m c 1 t (ix3 (0 : Fin 1) h w)) = bitE (V m c main_arg1 (ix3 b h w)) := by
  obtain ⟨e00, e01, e02, e03, e10, e11, e12, e20, e21, e22, e31, e32, e3lt, e40, e41, e42⟩ := idx_facts t
  have hh : h.val < 512 := h.isLt
  have hw : w.val < 512 := w.isLt
  refine congrArg bitE ?_
  show V m c main_arg1 (((cfg0.win 1).blk t).view.emb (ix3 (0 : Fin 1) h w)) = V m c main_arg1 (ix3 b h w)
  refine congrArg (V m c main_arg1) (funext fun a => Fin.ext ?_)
  match a with
  | ⟨0, _⟩ => show win0_1.index t (0 : Fin 3) * 1 + 1 * 0 = b.val; omega
  | ⟨1, _⟩ => show win0_1.index t (1 : Fin 3) * 512 + 1 * h.val = h.val; omega
  | ⟨2, _⟩ => show win0_1.index t (2 : Fin 3) * 512 + 1 * w.val = w.val; omega

/-- WHAT POINT t WRITES BACK to the second result: block t of `G4`. -/
theorem flushed4_eq (c : Dev nD) (t : Fin cfg0.N) :
    (dats m 0 c).flushed 4 t = ((cfg0.win 4).blk t).view.read (Elt Ideal) (G4 (V m c main_arg1)) := by
  show (cfg0.win 4).cut (grid0.coords t) ((dats m 0 c).after 4 t) = _
  rw [after0_4]
  unfold out0_4
  rw [View.canon_unit_zero hz3]
  simp only [View.ld_unit_zero (S := S1x512x512) hz3]
  funext y
  have hy0 : (y 0).val < 1 := (y 0).isLt
  refine (pay3_at (iblk m c 1 t) y).trans ?_
  rw [read4]
  unfold G4 rowDen
  refine Fintype.sum_congr _ _ fun h => Fintype.sum_congr _ _ fun w => ?_
  refine bit_blk m c t _ ?_ h w
  show win0_4.index t (0 : Fin 3) * 1 + 1 * (y 0).val = win0_4.index t (0 : Fin 3)
  omega

end Cert.KernelIdeal.Val

end
-- ==== Proof.KernelRun.lean ====
/-
  The two result arrays after the region, the host lines after it, and the kernel program's run.
  Each of the sixteen grid points writes element (t, 0, 0) of both arrays, so every index is covered and the arrays end
  holding the per-entry sums. Summing them over the entries from zero gives the numerator (every pixel's contribution,
  regrouped by batch entry, row and column) and the count; their quotient is the loss.
-/
import proofs.«418493_j18562848654175_3_alg».proof.Proof.KernelValue

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx Cert.Loss Cert.KernelIdeal.Pay Idealize.ShloMosaic.StableHlo
open Idealize.ShloMosaic.Pipeline (Dat)

variable (m : (ℓ : Loc nD τ sig) → Buf (Elt Ideal) ℓ) (ρ : Dev nD → PrngReg)

/-- An index of the first result array is in point t's block iff each coordinate is in the block's range. -/
theorem mem_blk3 (t : Fin cfg0.N) (i : S16x1x1.Idx) :
    i ∈ ((cfg0.win 3).blk t).view.set ↔ ∀ a : Fin 3, win0_3.index t a * S1x1x1.size a ≤ (i a).val
      ∧ (i a).val < win0_3.index t a * S1x1x1.size a + S1x1x1.size a := by
  show i ∈ ((View.whole main_v0_0).slice (win0_3.rect t)).set ↔ _
  rw [View.set_slice_whole, Rect.mem_set_unit]
  exact Iff.rfl

/-- The same of the second result array. -/
theorem mem_blk4 (t : Fin cfg0.N) (i : S16x1x1.Idx) :
    i ∈ ((cfg0.win 4).blk t).view.set ↔ ∀ a : Fin 3, win0_4.index t a * S1x1x1.size a ≤ (i a).val
      ∧ (i a).val < win0_4.index t a * S1x1x1.size a + S1x1x1.size a := by
  show i ∈ ((View.whole main_v0_1).slice (win0_4.rect t)).set ↔ _
  rw [View.set_slice_whole, Rect.mem_set_unit]
  exact Iff.rfl

/-- Every index of the first result array is in the block of the point that handles its batch entry. -/
theorem cover3 (i : S16x1x1.Idx) : ∃ t : Fin cfg0.N, (cfg0.win 3).flush t = true ∧ i ∈ ((cfg0.win 3).blk t).view.set := by
  have hi0 : (i 0).val < 16 := (i 0).isLt
  have hi1 : (i 1).val < 1 := (i 1).isLt
  have hi2 : (i 2).val < 1 := (i 2).isLt
  obtain ⟨t, ht, -⟩ := idx_onto ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 1 ≤ (i 2).val ∧ (i 2).val < win0_3.index t (2 : Fin 3) * 1 + 1; omega

/-- The same of the second result array. -/
theorem cover4 (i : S16x1x1.Idx) : ∃ t : Fin cfg0.N, (cfg0.win 4).flush t = true ∧ i ∈ ((cfg0.win 4).blk t).view.set := by
  have hi0 : (i 0).val < 16 := (i 0).isLt
  have hi1 : (i 1).val < 1 := (i 1).isLt
  have hi2 : (i 2).val < 1 := (i 2).isLt
  obtain ⟨t, -, ht⟩ := idx_onto ⟨(i 0).val, hi0⟩
  have q0 : win0_4.index t (0 : Fin 3) = (i 0).val := congrFun ht 0
  have q1 : win0_4.index t (1 : Fin 3) = 0 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 1 ≤ (i 2).val ∧ (i 2).val < win0_4.index t (2 : Fin 3) * 1 + 1; omega

/-- THE FIRST RESULT ARRAY after the region. -/
theorem final3 (c : Dev nD) :
    (dats m 0 c).arrAt 3 cfg0.N = G3 (V m c main_arg0) (V m c main_arg1) (V m c main_arg2) :=
  (dats m 0 c).arrAt_eq_of_cover 3 _ (fun t _ => flushed3_eq m c t) (fun i => cover3 i)

/-- THE SECOND RESULT ARRAY after the region. -/
theorem final4 (c : Dev nD) : (dats m 0 c).arrAt 4 cfg0.N = G4 (V m c main_arg1) :=
  (dats m 0 c).arrAt_eq_of_cover 4 _ (fun t _ => flushed4_eq m c t) (fun i => cover4 i)

/-- The per-entry numerator parts add up to the numerator. -/
theorem sum_G3 (x : SLog.Idx → EReal) (tg me : SPix.Idx → BitVec 32) : ∑ j : S16x1x1.Idx, G3 x tg me j = num x tg me := by
  unfold num
  rw [sum_idx3 (n0 := 16) (n1 := 1) (n2 := 1) (G3 x tg me), sum_idx3 (n0 := 16) (n1 := 512) (n2 := 512) (term x tg me)]
  refine Fintype.sum_congr _ _ fun b => ?_
  rw [sum_fin_one, sum_fin_one]
  rfl

/-- The per-entry counts add up to the count. -/
theorem sum_G4 (tg : SPix.Idx → BitVec 32) : ∑ j : S16x1x1.Idx, G4 tg j = den tg := by
  unfold den
  rw [sum_idx3 (n0 := 16) (n1 := 1) (n2 := 1) (G4 tg),
    sum_idx3 (n0 := 16) (n1 := 512) (n2 := 512) (fun i => (((live (tg i)).toNat : ℝ) : EReal))]
  refine Fintype.sum_congr _ _ fun b => ?_
  rw [sum_fin_one, sum_fin_one]
  rfl

/-- The host's sum of a [16, 1, 1] array over all its axes from zero is the sum of its entries. -/
theorem hostSum16 (g : FVec Ideal S16x1x1 .f32) (i : S_.Idx) :
    Host.reduceAdd (F := Ideal) g (constant (F := Ideal) S_ .f32 0x00000000#32) reducesTo_S16x1x1_S_d0_1_2 h_S_ i = ∑ j, g j := by
  simp only [Host.reduceAdd, Ideal.hostReduceAdd_def]
  rw [Ideal.hostReduceAdd_total reducesTo_S16x1x1_S_d0_1_2 (fun b => b.elim0)]
  show Ideal.ofBits .f32 0x00000000#32 + _ = _
  rw [Ideal.ofBits_zero_f32, zero_add]

/-- The quotient of the host sums of two [16, 1, 1] arrays, at the result's one index. -/
theorem tail_div (g3 g4 : FVec Ideal S16x1x1 .f32) (i : S_.Idx) :
    Host.divf (F := Ideal)
      (Host.reduceAdd (F := Ideal) g3 (constant (F := Ideal) S_ .f32 0x00000000#32) reducesTo_S16x1x1_S_d0_1_2 h_S_)
      (Host.reduceAdd (F := Ideal) g4 (constant (F := Ideal) S_ .f32 0x00000000#32) reducesTo_S16x1x1_S_d0_1_2 h_S_) i
      = Ideal.div (∑ j, g3 j) (∑ j, g4 j) := by
  simp only [Host.divf, Ideal.hostDivf_def]
  rw [hostSum16, hostSum16]

/-- The quotient of the two host sums is the loss. -/
theorem tail_value (x : SLog.Idx → EReal) (tg me : SPix.Idx → BitVec 32) :
    Host.divf (F := Ideal)
      (Host.reduceAdd (F := Ideal) (G3 x tg me) (constant (F := Ideal) S_ .f32 0x00000000#32) reducesTo_S16x1x1_S_d0_1_2 h_S_)
      (Host.reduceAdd (F := Ideal) (G4 tg) (constant (F := Ideal) S_ .f32 0x00000000#32) reducesTo_S16x1x1_S_d0_1_2 h_S_)
      = fun _ => loss x tg me := by
  funext i
  rw [tail_div (G3 x tg me) (G4 tg) i, sum_G3, sum_G4]
  unfold loss
  rfl

/-- The first result array as the host lines after the region find it. -/
theorem arr3_eq (c : Dev nD) :
    Pipeline.withArrays (cfgs 0).spec c (V0 m c) (fun w => (dats m 0 c).arrAt w (cfgs 0).N) (Proc.devRef .tc main_v0_0)
      = G3 (V m c main_arg0) (V m c main_arg1) (V m c main_arg2) :=
  (Pipeline.withArrays_arr spec0 winFacts0.arr_inj c _ _ 3).trans (final3 m c)

/-- The second result array as the host lines after the region find it. -/
theorem arr4_eq (c : Dev nD) :
    Pipeline.withArrays (cfgs 0).spec c (V0 m c) (fun w => (dats m 0 c).arrAt w (cfgs 0).N) (Proc.devRef .tc main_v0_1)
      = G4 (V m c main_arg1) :=
  (Pipeline.withArrays_arr spec0 winFacts0.arr_inj c _ _ 4).trans (final4 m c)

/-- @main's result after the host lines that follow the region: the loss of the argument arrays. -/
theorem tail_eq (c : Dev nD) :
    Pipeline.afterTail₀ cfgs (dats m) 0 (V0 m) [hostOps1] c main_v3
      = fun _ => loss (V m c main_arg0) (V m c main_arg1) (V m c main_arg2) := by
  unfold Pipeline.afterTail₀
  show StableHlo.after hostOps1 _ (Proc.devRef .tc main_v3) = _
  after_results
  rw [arr3_eq, arr4_eq]
  exact tail_value _ _ _

/-- THE KERNEL PROGRAM'S RUN at the ideal values: it terminates with its result at the loss of its argument arrays and
    the arguments unchanged. -/
theorem run : θ_run defs (onTc (τ := τ) (main (F := Ideal))) ⟨m, fun _ => 0, ρ⟩ fun r => ∀ c : Dev nD,
      r.2.mem ((c.tc : Thread nD τ).loc main_v3)
        = (fun _ => loss (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v3 (Pipeline.mem_restRefs_of main_v3 rfl (fun w => by fin_cases w <;> decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).1 2).trans (((dats m 0 c).arrAt_in 2 rfl _).trans ((A_eq m c 2).trans (V_main_arg2 m c)))⟩)
    (run_main m ρ)

end Cert.KernelIdeal.Val

end
-- ==== Proof.LibSsa.lean ====
/-
  Straight-line host programs read in single-assignment form.

  A host program is a list of operations, each of which overwrites one buffer with a function of the contents of
  other buffers; `after ops V` is the fold of those overwrites over starting contents `V`. When every buffer is
  written at most once, and only after the last time an earlier operation has read or written it, the final contents
  satisfy one EQUATION per operation: the buffer an operation writes ends at the operation's function of the FINAL
  contents of the buffers it reads. The lemmas below prove that equation for each kind of operation from two facts
  about the list that are decided by inspection of the buffers' names: the buffer written at position `k` is not
  written again later, and the buffers read at position `k` are not written at position `k` or later.
-/
import Idealize.ShloMosaic.Lib.StableHlo.Run

noncomputable section

namespace Idealize.ShloMosaic.StableHlo.Ssa

open Idealize.ShloMosaic Idealize.ShloMosaic.StableHlo

variable {τ : Topo} {sig : RefSig} {Val : EltTy → Type}

/-- Running two lines one after the other folds the second over what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- `W` names, operation by operation, the one buffer each operation of the line writes. -/
def WritesOnly : List (HloOp τ sig Val) → List (Ref sig .tc) → Prop
  | [], [] => True
  | op :: ops, w :: W => op.writes = {Proc.devRef .tc w} ∧ WritesOnly ops W
  | [], _ :: _ => False
  | _ :: _, [] => False

theorem WritesOnly.drop : ∀ (k : Nat) (ops : List (HloOp τ sig Val)) (W : List (Ref sig .tc)),
    WritesOnly ops W → WritesOnly (ops.drop k) (W.drop k)
  | 0, _, _, h => h
  | _ + 1, [], [], _ => trivial
  | k + 1, _ :: ops, _ :: W, h => WritesOnly.drop k ops W h.2
  | _ + 1, [], _ :: _, h => h.elim
  | _ + 1, _ :: _, [], h => h.elim

/-- A buffer whose name is not among the written ones keeps its contents through the line. -/
theorem after_of_not_written : ∀ (ops : List (HloOp τ sig Val)) (W : List (Ref sig .tc)) (V : Valuation τ sig Val)
    (r : Ref sig .tc), WritesOnly ops W → r ∉ W → after ops V (Proc.devRef .tc r) = V (Proc.devRef .tc r)
  | [], [], _, _, _, _ => rfl
  | op :: ops, w :: W, V, r, h, hr => by
    have hrw : r ≠ w := fun e => hr (e ▸ List.mem_cons_self)
    have hrW : r ∉ W := fun e => hr (List.mem_cons_of_mem _ e)
    rw [after_cons, after_of_not_written ops W _ r h.2 hrW, op.result_of_not_mem V]
    rw [h.1, Finset.mem_singleton]
    exact devRef_ne_of_ne hrw
  | [], _ :: _, _, _, h, _ => h.elim
  | _ :: _, [], _, _, h, _ => h.elim

variable (ops : List (HloOp τ sig Val)) (W : List (Ref sig .tc)) (hW : WritesOnly ops W) (V : Valuation τ sig Val)
include hW

/-- The buffer written at position `k` and never again ends at that operation's result over the contents the
    first `k` operations leave. -/
theorem after_at (k : Nat) (op : HloOp τ sig Val) (y : Ref sig .tc)
    (hop : ops.drop k = op :: ops.drop (k + 1)) (hy : y ∉ W.drop (k + 1)) :
    after ops V (Proc.devRef .tc y) = op.result (after (ops.take k) V) (Proc.devRef .tc y) := by
  conv_lhs => rw [← List.take_append_drop k ops, after_append, hop, after_cons]
  exact after_of_not_written _ _ _ y (hW.drop (k + 1)) hy

/-- A buffer not written at position `k` or later already has its final contents after the first `k` operations. -/
theorem after_take (k : Nat) (x : Ref sig .tc) (hx : x ∉ W.drop k) :
    after (ops.take k) V (Proc.devRef .tc x) = after ops V (Proc.devRef .tc x) := by
  conv_rhs => rw [← List.take_append_drop k ops, after_append]
  exact (after_of_not_written _ _ _ x (hW.drop k) hx).symm

/-- A buffer no operation writes keeps its starting contents. -/
theorem after_arg (x : Ref sig .tc) (hx : x ∉ W) : after ops V (Proc.devRef .tc x) = V (Proc.devRef .tc x) :=
  after_of_not_written ops W V x hW hx

theorem ssa_nullary (k : Nat) (y : Ref sig .tc) (v : y.ty.Contents Val) (hy)
    (hop : ops.drop k = nullary y v hy :: ops.drop (k + 1)) (hy' : y ∉ W.drop (k + 1)) :
    after ops V (Proc.devRef .tc y) = v := by
  rw [after_at ops W hW V k _ y hop hy']; exact nullary_result y v hy _

theorem ssa_unary (k : Nat) (x y : Ref sig .tc) (f : x.ty.Contents Val → y.ty.Contents Val) (hx hy)
    (hop : ops.drop k = unary x y f hx hy :: ops.drop (k + 1)) (hy' : y ∉ W.drop (k + 1)) (hx' : x ∉ W.drop k) :
    after ops V (Proc.devRef .tc y) = f (after ops V (Proc.devRef .tc x)) := by
  rw [after_at ops W hW V k _ y hop hy', ← after_take ops W hW V k x hx']; exact unary_result x y f hx hy _

theorem ssa_binary (k : Nat) (a b y : Ref sig .tc) (f : a.ty.Contents Val → b.ty.Contents Val → y.ty.Contents Val) (ha hb hy)
    (hop : ops.drop k = binary a b y f ha hb hy :: ops.drop (k + 1)) (hy' : y ∉ W.drop (k + 1))
    (ha' : a ∉ W.drop k) (hb' : b ∉ W.drop k) :
    after ops V (Proc.devRef .tc y) = f (after ops V (Proc.devRef .tc a)) (after ops V (Proc.devRef .tc b)) := by
  rw [after_at ops W hW V k _ y hop hy', ← after_take ops W hW V k a ha', ← after_take ops W hW V k b hb']
  exact binary_result a b y f ha hb hy _

theorem ssa_ternary (k : Nat) (c a b y : Ref sig .tc)
    (f : c.ty.Contents Val → a.ty.Contents Val → b.ty.Contents Val → y.ty.Contents Val) (hc ha hb hy)
    (hop : ops.drop k = ternary c a b y f hc ha hb hy :: ops.drop (k + 1)) (hy' : y ∉ W.drop (k + 1))
    (hc' : c ∉ W.drop k) (ha' : a ∉ W.drop k) (hb' : b ∉ W.drop k) :
    after ops V (Proc.devRef .tc y)
      = f (after ops V (Proc.devRef .tc c)) (after ops V (Proc.devRef .tc a)) (after ops V (Proc.devRef .tc b)) := by
  rw [after_at ops W hW V k _ y hop hy', ← after_take ops W hW V k c hc', ← after_take ops W hW V k a ha',
    ← after_take ops W hW V k b hb']
  exact ternary_result c a b y f hc ha hb hy _

theorem ssa_reshape (k : Nat) (x y : Ref sig .tc) (he : x.ty.elt = y.ty.elt) (hn : x.ty.shape.ShapeCasts y.ty.shape) (hx hy)
    (hop : ops.drop k = reshape (Val := Val) x y he hn hx hy :: ops.drop (k + 1)) (hy' : y ∉ W.drop (k + 1))
    (hx' : x ∉ W.drop k) :
    after ops V (Proc.devRef .tc y) = fun i => he ▸ shapeCast y.ty.shape (after ops V (Proc.devRef .tc x)) hn i := by
  rw [after_at ops W hW V k _ y hop hy', ← after_take ops W hW V k x hx']; exact reshape_result x y he hn hx hy _

theorem ssa_nary (k : Nat) {n : Nat} (xs : Fin n → Ref sig .tc) (y : Ref sig .tc)
    (f : ((j : Fin n) → (xs j).ty.Contents Val) → y.ty.Contents Val) (hxs hy)
    (hop : ops.drop k = nary xs y f hxs hy :: ops.drop (k + 1)) (hy' : y ∉ W.drop (k + 1))
    (hxs' : ∀ j, xs j ∉ W.drop k) :
    after ops V (Proc.devRef .tc y) = f (fun j => after ops V (Proc.devRef .tc (xs j))) := by
  rw [after_at ops W hW V k _ y hop hy', nary_result]
  exact congrArg f (funext fun j => after_take ops W hW V k (xs j) (hxs' j))

end Idealize.ShloMosaic.StableHlo.Ssa

end
-- ==== Proof.RefOps.lean ====
/-
  The reference's @main as a straight line: the list of its seventy host operations (the operations of the four
  called functions standing in their calls' places), that @main IS that line run in order, the two facts about the
  signature and the one about the operations' buffers that the run of a straight line asks for, and the list of
  the buffers the operations write: operation `k` writes exactly the `k`-th buffer of `W`, no buffer occurs in
  `W` twice, and the three arguments do not occur in it. From these the contents every buffer ends with are read
  off one operation at a time (the next module).
-/
import proofs.«418493_j18562848654175_3_alg».proof.Proof.Gen.ReferenceIdeal
import proofs.«418493_j18562848654175_3_alg».proof.Proof.LibSsa
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- @main's 70 operations, in order (a called function's operations stand in its call's place, spelt `TRef.…`). -/
abbrev ops : List (HloOp τ sig (Elt F)) :=
  [ nullary main_c (constantI S_ 32 4#32),
    unary main_c main_v0 (broadcastInDim S16x512x512 ![] bcast_S_S16x512x512 : (⟨S_, .i32⟩ : BufTy).Contents (Elt F) → (⟨S16x512x512, .i32⟩ : BufTy).Contents (Elt F)),
    binary main_arg1 main_v0 main_v1 (cmpi .ne : (⟨S16x512x512, .i32⟩ : BufTy).Contents (Elt F) → (⟨S16x512x512, .i32⟩ : BufTy).Contents (Elt F) → (⟨S16x512x512, .i1⟩ : BufTy).Contents (Elt F)),
    TRef.nullary (TRef.of (T := ⟨S_, .f32⟩) main_call0_cst) (constant S_ .f32 0xFF800000#32),
    TRef.binary (TRef.of (T := ⟨S16x4x512x512, .f32⟩) main_arg0) (TRef.of (T := ⟨S_, .f32⟩) main_call0_cst) (TRef.of (T := ⟨S16x512x512, .f32⟩) main_call0_v0) (fun x v => Host.reduce FloatOps.maximumf x v reducesTo_S16x4x512x512_S16x512x512_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S16x512x512, .f32⟩) main_call0_v1) (broadcastInDim S16x512x512 ![] bcast_S_S16x512x512),
    TRef.binary (TRef.of (T := ⟨S16x512x512, .f32⟩) main_call0_v1) (TRef.of (T := ⟨S16x512x512, .f32⟩) main_call0_v0) (TRef.of (T := ⟨S16x512x512, .f32⟩) main_call0_v2) maximumf,
    TRef.unary (TRef.of (T := ⟨S16x512x512, .f32⟩) main_call0_v2) (TRef.of (T := ⟨S16x1x512x512, .f32⟩) main_call0_v3) (broadcastInDim S16x1x512x512 ![0, 2, 3] bcast_S16x512x512_S16x1x512x512_0_2_3),
    TRef.unary (TRef.of (T := ⟨S16x1x512x512, .f32⟩) main_call0_v3) (TRef.of (T := ⟨S16x4x512x512, .f32⟩) main_call0_v4) (broadcastInDim S16x4x512x512 ![0, 1, 2, 3] bcast_S16x1x512x512_S16x4x512x512_0_1_2_3),
    TRef.binary (TRef.of (T := ⟨S16x4x512x512, .f32⟩) main_arg0) (TRef.of (T := ⟨S16x4x512x512, .f32⟩) main_call0_v4) (TRef.of (T := ⟨S16x4x512x512, .f32⟩) main_call0_v5) subf,
    TRef.unary (TRef.of (T := ⟨S16x4x512x512, .f32⟩) main_call0_v5) (TRef.of (T := ⟨S16x4x512x512, .f32⟩) main_call0_v6) Host.exp,
    TRef.nullary (TRef.of (T := ⟨S_, .f32⟩) main_call0_cst_1) (constant S_ .f32 0x00000000#32),
    TRef.binary (TRef.of (T := ⟨S16x4x512x512, .f32⟩) main_call0_v6) (TRef.of (T := ⟨S_, .f32⟩) main_call0_cst_1) (TRef.of (T := ⟨S16x512x512, .f32⟩) main_call0_v7) (fun x v => Host.reduceAdd x v reducesTo_S16x4x512x512_S16x512x512_d1 h_S_),
    TRef.unary (TRef.of (T := ⟨S16x512x512, .f32⟩) main_call0_v7) (TRef.of (T := ⟨S16x1x512x512, .f32⟩) main_call0_v8) (broadcastInDim S16x1x512x512 ![0, 2, 3] bcast_S16x512x512_S16x1x512x512_0_2_3),
    TRef.unary (TRef.of (T := ⟨S16x1x512x512, .f32⟩) main_call0_v8) (TRef.of (T := ⟨S16x1x512x512, .f32⟩) main_call0_v9) Host.log,
    TRef.unary (TRef.of (T := ⟨S16x1x512x512, .f32⟩) main_call0_v9) (TRef.of (T := ⟨S16x4x512x512, .f32⟩) main_call0_v10) (broadcastInDim S16x4x512x512 ![0, 1, 2, 3] bcast_S16x1x512x512_S16x4x512x512_0_1_2_3),
    TRef.binary (TRef.of (T := ⟨S16x4x512x512, .f32⟩) main_call0_v5) (TRef.of (T := ⟨S16x4x512x512, .f32⟩) main_call0_v10) (TRef.of (T := ⟨S16x4x512x512, .f32⟩) main_v2) subf,
    nullary main_c_0 (constantI S_ 32 0#32),
    nullary main_c_1 (constantI S_ 32 3#32),
    TRef.unary (TRef.of (T := ⟨S_, .i32⟩) main_c_0) (TRef.of (T := ⟨S_, .i32⟩) main_call1_v0) id,
    TRef.unary (TRef.of (T := ⟨S_, .i32⟩) main_call1_v0) (TRef.of (T := ⟨S16x512x512, .i32⟩) main_call1_v1) (broadcastInDim S16x512x512 ![] bcast_S_S16x512x512),
    TRef.binary (TRef.of (T := ⟨S16x512x512, .i32⟩) main_call1_v1) (TRef.of (T := ⟨S16x512x512, .i32⟩) main_arg1) (TRef.of (T := ⟨S16x512x512, .i32⟩) main_call1_v2) maxsi,
    TRef.unary (TRef.of (T := ⟨S_, .i32⟩) main_c_1) (TRef.of (T := ⟨S_, .i32⟩) main_call1_v3) id,
    TRef.unary (TRef.of (T := ⟨S_, .i32⟩) main_call1_v3) (TRef.of (T := ⟨S16x512x512, .i32⟩) main_call1_v4) (broadcastInDim S16x512x512 ![] bcast_S_S16x512x512),
    TRef.binary (TRef.of (T := ⟨S16x512x512, .i32⟩) main_call1_v4) (TRef.of (T := ⟨S16x512x512, .i32⟩) main_call1_v2) (TRef.of (T := ⟨S16x512x512, .i32⟩) main_v3) minsi,
    unary main_v3 main_v4 (broadcastInDim S16x1x512x512 ![0, 2, 3] bcast_S16x512x512_S16x1x512x512_0_2_3 : (⟨S16x512x512, .i32⟩ : BufTy).Contents (Elt F) → (⟨S16x1x512x512, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S16x1x512x512, .i32⟩) main_call2_v0) (broadcastInDim S16x1x512x512 ![] bcast_S_S16x1x512x512),
    TRef.binary (TRef.of (T := ⟨S16x1x512x512, .i32⟩) main_v4) (TRef.of (T := ⟨S16x1x512x512, .i32⟩) main_call2_v0) (TRef.of (T := ⟨S16x1x512x512, .i1⟩) main_call2_v1) (cmpi .slt),
    TRef.nullary (TRef.of (T := ⟨S_, .i32⟩) main_call2_c_0) (constantI S_ 32 4#32),
    TRef.unary (TRef.of (T := ⟨S_, .i32⟩) main_call2_c_0) (TRef.of (T := ⟨S16x1x512x512, .i32⟩) main_call2_v2) (broadcastInDim S16x1x512x512 ![] bcast_S_S16x1x512x512),
    TRef.binary (TRef.of (T := ⟨S16x1x512x512, .i32⟩) main_v4) (TRef.of (T := ⟨S16x1x512x512, .i32⟩) main_call2_v2) (TRef.of (T := ⟨S16x1x512x512, .i32⟩) main_call2_v3) addi,
    TRef.ternary (TRef.of (T := ⟨S16x1x512x512, .i1⟩) main_call2_v1) (TRef.of (T := ⟨S16x1x512x512, .i32⟩) main_call2_v3) (TRef.of (T := ⟨S16x1x512x512, .i32⟩) main_v4) (TRef.of (T := ⟨S16x1x512x512, .i32⟩) main_call2_v4) select,
    TRef.reshape (TRef.of (T := ⟨S16x1x512x512, .i32⟩) main_call2_v4) (TRef.of (T := ⟨S16x1x512x512x1, .i32⟩) main_call2_v5) rfl shapeCasts_S16x1x512x512_S16x1x512x512x1,
    TRef.nullary (TRef.of (T := ⟨S1, .i32⟩) main_call2_c_1) (constantI S1 32 3#32),
    TRef.nullary (TRef.of (T := ⟨S_, .i32⟩) main_call2_c_2) (constantI S_ 32 0#32),
    TRef.unary (TRef.of (T := ⟨S_, .i32⟩) main_call2_c_2) (TRef.of (T := ⟨S16x1x512x512x1, .i32⟩) main_call2_v6) (broadcastInDim S16x1x512x512x1 ![] bcast_S_S16x1x512x512x1),
    TRef.binary (TRef.of (T := ⟨S16x1x512x512x1, .i32⟩) main_call2_v5) (TRef.of (T := ⟨S16x1x512x512x1, .i32⟩) main_call2_v6) (TRef.of (T := ⟨S16x1x512x512x1, .i1⟩) main_call2_v7) (cmpi .sge),
    TRef.unary (TRef.of (T := ⟨S1, .i32⟩) main_call2_c_1) (TRef.of (T := ⟨S1x1x1x1x1, .i32⟩) main_call2_v8) (broadcastInDim S1x1x1x1x1 ![4] bcast_S1_S1x1x1x1x1_4),
    TRef.unary (TRef.of (T := ⟨S1x1x1x1x1, .i32⟩) main_call2_v8) (TRef.of (T := ⟨S16x1x512x512x1, .i32⟩) main_call2_v9) (broadcastInDim S16x1x512x512x1 ![0, 1, 2, 3, 4] bcast_S1x1x1x1x1_S16x1x512x512x1_0_1_2_3_4),
    TRef.binary (TRef.of (T := ⟨S16x1x512x512x1, .i32⟩) main_call2_v5) (TRef.of (T := ⟨S16x1x512x512x1, .i32⟩) main_call2_v9) (TRef.of (T := ⟨S16x1x512x512x1, .i1⟩) main_call2_v10) (cmpi .sle),
    TRef.binary (TRef.of (T := ⟨S16x1x512x512x1, .i1⟩) main_call2_v7) (TRef.of (T := ⟨S16x1x512x512x1, .i1⟩) main_call2_v10) (TRef.of (T := ⟨S16x1x512x512x1, .i1⟩) main_call2_v11) andi,
    TRef.nullary (TRef.of (T := ⟨S_, .i1⟩) main_call2_c_3) (constantI S_ 1 1#1),
    TRef.binary (TRef.of (T := ⟨S16x1x512x512x1, .i1⟩) main_call2_v11) (TRef.of (T := ⟨S_, .i1⟩) main_call2_c_3) (TRef.of (T := ⟨S16x1x512x512, .i1⟩) main_call2_v12) (fun x v => Host.reduce IntOp.andi x v reducesTo_S16x1x512x512x1_S16x1x512x512_d4 h_S_),
    TRef.binary (TRef.of (T := ⟨S16x4x512x512, .f32⟩) main_v2) (TRef.of (T := ⟨S16x1x512x512x1, .i32⟩) main_call2_v5) (TRef.of (T := ⟨S16x1x512x512, .f32⟩) main_call2_v13) (fun x i => Host.gather gather_S16x4x512x512_S16x1x512x512x1_S16x1x512x512_n_1_023_023_1_4_1111 x i),
    TRef.nullary (TRef.of (T := ⟨S_, .f32⟩) main_call2_cst) (constant S_ .f32 0x7FC00000#32),
    TRef.unary (TRef.of (T := ⟨S_, .f32⟩) main_call2_cst) (TRef.of (T := ⟨S16x1x512x512, .f32⟩) main_call2_v14) (broadcastInDim S16x1x512x512 ![] bcast_S_S16x1x512x512),
    TRef.ternary (TRef.of (T := ⟨S16x1x512x512, .i1⟩) main_call2_v12) (TRef.of (T := ⟨S16x1x512x512, .f32⟩) main_call2_v13) (TRef.of (T := ⟨S16x1x512x512, .f32⟩) main_call2_v14) (TRef.of (T := ⟨S16x1x512x512, .f32⟩) main_v5) select,
    reshape main_v5 main_v6 rfl shapeCasts_S16x1x512x512_S16x512x512,
    unary main_v6 main_v7 (Host.negf : (⟨S16x512x512, .f32⟩ : BufTy).Contents (Elt F) → (⟨S16x512x512, .f32⟩ : BufTy).Contents (Elt F)),
    unary main_v1 main_v8 (uitofp .f32 : (⟨S16x512x512, .i1⟩ : BufTy).Contents (Elt F) → (⟨S16x512x512, .f32⟩ : BufTy).Contents (Elt F)),
    binary main_v7 main_v8 main_v9 (mulf : (⟨S16x512x512, .f32⟩ : BufTy).Contents (Elt F) → (⟨S16x512x512, .f32⟩ : BufTy).Contents (Elt F) → (⟨S16x512x512, .f32⟩ : BufTy).Contents (Elt F)),
    nullary main_c_2 (constantI S_ 32 0#32),
    unary main_c_2 main_v10 (broadcastInDim S16x512x512 ![] bcast_S_S16x512x512 : (⟨S_, .i32⟩ : BufTy).Contents (Elt F) → (⟨S16x512x512, .i32⟩ : BufTy).Contents (Elt F)),
    binary main_arg2 main_v10 main_v11 (cmpi .eq : (⟨S16x512x512, .i32⟩ : BufTy).Contents (Elt F) → (⟨S16x512x512, .i32⟩ : BufTy).Contents (Elt F) → (⟨S16x512x512, .i1⟩ : BufTy).Contents (Elt F)),
    nullary main_cst (constant S_ .f32 0x3F800000#32),
    nullary main_cst_3 (constant S_ .f32 0x3F000000#32),
    TRef.unary (TRef.of (T := ⟨S_, .f32⟩) main_cst) (TRef.of (T := ⟨S16x512x512, .f32⟩) main_call3_v0) (broadcastInDim S16x512x512 ![] bcast_S_S16x512x512),
    TRef.unary (TRef.of (T := ⟨S_, .f32⟩) main_cst_3) (TRef.of (T := ⟨S16x512x512, .f32⟩) main_call3_v1) (broadcastInDim S16x512x512 ![] bcast_S_S16x512x512),
    TRef.ternary (TRef.of (T := ⟨S16x512x512, .i1⟩) main_v11) (TRef.of (T := ⟨S16x512x512, .f32⟩) main_call3_v0) (TRef.of (T := ⟨S16x512x512, .f32⟩) main_call3_v1) (TRef.of (T := ⟨S16x512x512, .f32⟩) main_v12) select,
    unary main_v12 main_v13 (id : (⟨S16x512x512, .f32⟩ : BufTy).Contents (Elt F) → (⟨S16x512x512, .f32⟩ : BufTy).Contents (Elt F)),
    binary main_v13 main_v9 main_v14 (mulf : (⟨S16x512x512, .f32⟩ : BufTy).Contents (Elt F) → (⟨S16x512x512, .f32⟩ : BufTy).Contents (Elt F) → (⟨S16x512x512, .f32⟩ : BufTy).Contents (Elt F)),
    nullary main_cst_4 (constant S_ .f32 0x00000000#32),
    binary main_v14 main_cst_4 main_v15 ((fun x v => Host.reduceAdd x v reducesTo_S16x512x512_S_d0_1_2 h_S_) : (⟨S16x512x512, .f32⟩ : BufTy).Contents (Elt F) → (⟨S_, .f32⟩ : BufTy).Contents (Elt F) → (⟨S_, .f32⟩ : BufTy).Contents (Elt F)),
    unary main_v1 main_v16 ((extui 32 · natLt_1_32) : (⟨S16x512x512, .i1⟩ : BufTy).Contents (Elt F) → (⟨S16x512x512, .i32⟩ : BufTy).Contents (Elt F)),
    nullary main_c_5 (constantI S_ 32 0#32),
    binary main_v16 main_c_5 main_v17 ((fun x v => Host.reduce IntOp.addi x v reducesTo_S16x512x512_S_d0_1_2 h_S_) : (⟨S16x512x512, .i32⟩ : BufTy).Contents (Elt F) → (⟨S_, .i32⟩ : BufTy).Contents (Elt F) → (⟨S_, .i32⟩ : BufTy).Contents (Elt F)),
    unary main_v17 main_v18 (sitofp .f32 : (⟨S_, .i32⟩ : BufTy).Contents (Elt F) → (⟨S_, .f32⟩ : BufTy).Contents (Elt F)),
    binary main_v15 main_v18 main_v19 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., unary_bufs_sub .., binary_bufs_sub .., nullary_bufs_sub .., unary_bufs_sub .., binary_bufs_sub .., nullary_bufs_sub .., nullary_bufs_sub .., unary_bufs_sub .., unary_bufs_sub .., ternary_bufs_sub .., unary_bufs_sub .., binary_bufs_sub .., nullary_bufs_sub .., binary_bufs_sub .., unary_bufs_sub .., nullary_bufs_sub .., binary_bufs_sub .., unary_bufs_sub .., binary_bufs_sub ..⟩

/-- The buffer each operation writes, in program order. -/
abbrev W : List (Ref sig .tc) :=
  [
    main_c, main_v0, main_v1, main_call0_cst, main_call0_v0, main_call0_cst_0, main_call0_v1, main_call0_v2,
    main_call0_v3, main_call0_v4, main_call0_v5, main_call0_v6, main_call0_cst_1, main_call0_v7, main_call0_v8, main_call0_v9,
    main_call0_v10, main_v2, main_c_0, main_c_1, main_call1_v0, main_call1_v1, main_call1_v2, main_call1_v3,
    main_call1_v4, main_v3, main_v4, main_call2_c, main_call2_v0, main_call2_v1, main_call2_c_0, main_call2_v2,
    main_call2_v3, main_call2_v4, main_call2_v5, main_call2_c_1, main_call2_c_2, main_call2_v6, main_call2_v7, main_call2_v8,
    main_call2_v9, main_call2_v10, main_call2_v11, main_call2_c_3, main_call2_v12, main_call2_v13, main_call2_cst, main_call2_v14,
    main_v5, main_v6, main_v7, main_v8, main_v9, main_c_2, main_v10, main_v11,
    main_cst, main_cst_3, main_call3_v0, main_call3_v1, main_v12, main_v13, main_v14, main_cst_4,
    main_v15, main_v16, main_c_5, main_v17, main_v18, main_v19 ]

set_option maxRecDepth 8192 in
/-- Operation `k` of the line writes the `k`-th buffer of `W` and nothing else. -/
theorem hW : Ssa.WritesOnly (ops : List (HloOp τ sig (Elt F))) W :=
  ⟨
    nullary_writes .., unary_writes .., binary_writes .., nullary_writes .., binary_writes .., nullary_writes .., unary_writes .., binary_writes ..,
    unary_writes .., unary_writes .., binary_writes .., unary_writes .., nullary_writes .., binary_writes .., unary_writes .., unary_writes ..,
    unary_writes .., binary_writes .., nullary_writes .., nullary_writes .., unary_writes .., unary_writes .., binary_writes .., unary_writes ..,
    unary_writes .., binary_writes .., unary_writes .., nullary_writes .., unary_writes .., binary_writes .., nullary_writes .., unary_writes ..,
    binary_writes .., ternary_writes .., reshape_writes .., nullary_writes .., nullary_writes .., unary_writes .., binary_writes .., unary_writes ..,
    unary_writes .., binary_writes .., binary_writes .., nullary_writes .., binary_writes .., binary_writes .., nullary_writes .., unary_writes ..,
    ternary_writes .., reshape_writes .., unary_writes .., unary_writes .., binary_writes .., nullary_writes .., unary_writes .., binary_writes ..,
    nullary_writes .., nullary_writes .., unary_writes .., unary_writes .., ternary_writes .., unary_writes .., binary_writes .., nullary_writes ..,
    binary_writes .., unary_writes .., nullary_writes .., binary_writes .., unary_writes .., binary_writes ..,
    trivial⟩

end Cert.ReferenceIdeal.RunP

end
-- ==== Proof.SsaAt.lean ====
/-
  The single-assignment equations with the operands' final contents substituted.

  In a straight line whose buffers are each written once, the buffer an operation writes ends at the operation's
  function of the final contents of the buffers it reads (the equations this module imports). When those final
  contents are already known, as values `vx`, `va`, `vb`, `vc`, the written buffer ends at the function of these
  values. Stated once for each kind of operation, over an arbitrary line, so that reading a given line operation by
  operation is a chain of applications of these, each handing its conclusion to the next as a hypothesis.
-/
import proofs.«418493_j18562848654175_3_alg».proof.Proof.LibSsa

noncomputable section

namespace Idealize.ShloMosaic.StableHlo.Ssa

open Idealize.ShloMosaic Idealize.ShloMosaic.StableHlo

variable {τ : Topo} {sig : RefSig} {Val : EltTy → Type}
variable (ops : List (HloOp τ sig Val)) (W : List (Ref sig .tc)) (hW : WritesOnly ops W) (V : Valuation τ sig Val)
include hW

theorem unary_at (k : Nat) (x y : Ref sig .tc) (f : x.ty.Contents Val → y.ty.Contents Val) (hx hy)
    (hop : ops.drop k = unary x y f hx hy :: ops.drop (k + 1)) (hy' : y ∉ W.drop (k + 1)) (hx' : x ∉ W.drop k)
    {vx : x.ty.Contents Val} (ex : after ops V (Proc.devRef .tc x) = vx) :
    after ops V (Proc.devRef .tc y) = f vx :=
  (ssa_unary ops W hW V k x y f hx hy hop hy' hx').trans (congrArg f ex)

theorem binary_at (k : Nat) (a b y : Ref sig .tc) (f : a.ty.Contents Val → b.ty.Contents Val → y.ty.Contents Val) (ha hb hy)
    (hop : ops.drop k = binary a b y f ha hb hy :: ops.drop (k + 1)) (hy' : y ∉ W.drop (k + 1))
    (ha' : a ∉ W.drop k) (hb' : b ∉ W.drop k)
    {va : a.ty.Contents Val} {vb : b.ty.Contents Val}
    (ea : after ops V (Proc.devRef .tc a) = va) (eb : after ops V (Proc.devRef .tc b) = vb) :
    after ops V (Proc.devRef .tc y) = f va vb :=
  (ssa_binary ops W hW V k a b y f ha hb hy hop hy' ha' hb').trans (congr (congrArg f ea) eb)

theorem ternary_at (k : Nat) (c a b y : Ref sig .tc)
    (f : c.ty.Contents Val → a.ty.Contents Val → b.ty.Contents Val → y.ty.Contents Val) (hc ha hb hy)
    (hop : ops.drop k = ternary c a b y f hc ha hb hy :: ops.drop (k + 1)) (hy' : y ∉ W.drop (k + 1))
    (hc' : c ∉ W.drop k) (ha' : a ∉ W.drop k) (hb' : b ∉ W.drop k)
    {vc : c.ty.Contents Val} {va : a.ty.Contents Val} {vb : b.ty.Contents Val}
    (ec : after ops V (Proc.devRef .tc c) = vc) (ea : after ops V (Proc.devRef .tc a) = va)
    (eb : after ops V (Proc.devRef .tc b) = vb) :
    after ops V (Proc.devRef .tc y) = f vc va vb :=
  (ssa_ternary ops W hW V k c a b y f hc ha hb hy hop hy' hc' ha' hb').trans (congr (congr (congrArg f ec) ea) eb)

theorem reshape_at (k : Nat) (x y : Ref sig .tc) (he : x.ty.elt = y.ty.elt) (hn : x.ty.shape.ShapeCasts y.ty.shape) (hx hy)
    (hop : ops.drop k = reshape (Val := Val) x y he hn hx hy :: ops.drop (k + 1)) (hy' : y ∉ W.drop (k + 1))
    (hx' : x ∉ W.drop k) {vx : x.ty.Contents Val} (ex : after ops V (Proc.devRef .tc x) = vx) :
    after ops V (Proc.devRef .tc y) = fun i => he ▸ shapeCast y.ty.shape vx hn i :=
  (ssa_reshape ops W hW V k x y he hn hx hy hop hy' hx').trans (by rw [ex])

end Idealize.ShloMosaic.StableHlo.Ssa

end
-- ==== Proof.RefStages.lean ====
/-
  The reference's straight line read one operation at a time. Every buffer is written by one operation, after every
  operation that writes one of its operands and never again; so the contents it ends with are that operation's function of
  the contents its operands end with. In program order this gives, for the buffer each operation writes, its final contents
  as the value of the same name (val_ of the buffer) applied to the starting contents of the arguments: the operation's
  function of its operands' values is that value by definition. Each equation names the operation's function at the
  types of the values it takes; that the operation in the list, which takes it through the buffers' own types, is the
  operation with this function is part of reading off the operation at its position.
-/
import proofs.«418493_j18562848654175_3_alg».proof.Proof.RefOps
import proofs.«418493_j18562848654175_3_alg».proof.Proof.RefReadP
import proofs.«418493_j18562848654175_3_alg».proof.Proof.SsaAt

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

-- the equations below never look inside a reduction or a gather: they are kept folded
attribute [local irreducible] Host.reduce Host.gather Host.reduceAdd

/-- No operation writes this argument: it keeps its starting contents. -/
theorem e_main_arg0 : after ops V (Proc.devRef .tc main_arg0) = V (Proc.devRef .tc main_arg0) :=
  Ssa.after_arg ops W hW V main_arg0 (by decide)

/-- No operation writes this argument: it keeps its starting contents. -/
theorem e_main_arg1 : after ops V (Proc.devRef .tc main_arg1) = V (Proc.devRef .tc main_arg1) :=
  Ssa.after_arg ops W hW V main_arg1 (by decide)

/-- No operation writes this argument: it keeps its starting contents. -/
theorem e_main_arg2 : after ops V (Proc.devRef .tc main_arg2) = V (Proc.devRef .tc main_arg2) :=
  Ssa.after_arg ops W hW V main_arg2 (by decide)

-- operation 0 (nullary)
theorem e_main_c : after ops V (Proc.devRef .tc main_c) = ReadP.val_main_c (F := F) :=
  Ssa.ssa_nullary ops W hW V 0 main_c (constantI S_ 32 4#32) _ rfl (by decide)

-- operation 1 (unary)
theorem e_main_v0 : after ops V (Proc.devRef .tc main_v0) = ReadP.val_main_v0 (F := F) :=
  Ssa.unary_at ops W hW V 1 main_c main_v0 (broadcastInDim S16x512x512 ![] bcast_S_S16x512x512 : (⟨S_, .i32⟩ : BufTy).Contents (Elt F) → (⟨S16x512x512, .i32⟩ : BufTy).Contents (Elt F)) _ _ rfl (by decide) (by decide) (e_main_c V)

-- operation 2 (binary)
theorem e_main_v1 : after ops V (Proc.devRef .tc main_v1) = ReadP.val_main_v1 (F := F) (V (Proc.devRef .tc main_arg1)) :=
  Ssa.binary_at ops W hW V 2 main_arg1 main_v0 main_v1 (cmpi .ne : (⟨S16x512x512, .i32⟩ : BufTy).Contents (Elt F) → (⟨S16x512x512, .i32⟩ : BufTy).Contents (Elt F) → (⟨S16x512x512, .i1⟩ : BufTy).Contents (Elt F)) _ _ _ rfl (by decide) (by decide) (by decide) (e_main_arg1 V) (e_main_v0 V)

-- operation 3 (nullary)
theorem e_main_call0_cst : after ops V (Proc.devRef .tc main_call0_cst) = ReadP.val_main_call0_cst (F := F) :=
  Ssa.ssa_nullary ops W hW V 3 main_call0_cst ((constant S_ .f32 0xFF800000#32) : (⟨S_, .f32⟩ : BufTy).Contents (Elt F)) _ rfl (by decide)

-- operation 4 (binary)
theorem e_main_call0_v0 : after ops V (Proc.devRef .tc main_call0_v0) = ReadP.val_main_call0_v0 (F := F) (V (Proc.devRef .tc main_arg0)) :=
  Ssa.binary_at ops W hW V 4 main_arg0 main_call0_cst main_call0_v0 ((fun x v => Host.reduce FloatOps.maximumf x v reducesTo_S16x4x512x512_S16x512x512_d1 h_S_) : (⟨S16x4x512x512, .f32⟩ : BufTy).Contents (Elt F) → (⟨S_, .f32⟩ : BufTy).Contents (Elt F) → (⟨S16x512x512, .f32⟩ : BufTy).Contents (Elt F)) _ _ _ rfl (by decide) (by decide) (by decide) (e_main_arg0 V) (e_main_call0_cst V)

-- operation 5 (nullary)
theorem e_main_call0_cst_0 : after ops V (Proc.devRef .tc main_call0_cst_0) = ReadP.val_main_call0_cst_0 (F := F) :=
  Ssa.ssa_nullary ops W hW V 5 main_call0_cst_0 ((constant S_ .f32 0xFF800000#32) : (⟨S_, .f32⟩ : BufTy).Contents (Elt F)) _ rfl (by decide)

-- operation 6 (unary)
theorem e_main_call0_v1 : after ops V (Proc.devRef .tc main_call0_v1) = ReadP.val_main_call0_v1 (F := F) :=
  Ssa.unary_at ops W hW V 6 main_call0_cst_0 main_call0_v1 ((broadcastInDim S16x512x512 ![] bcast_S_S16x512x512) : (⟨S_, .f32⟩ : BufTy).Contents (Elt F) → (⟨S16x512x512, .f32⟩ : BufTy).Contents (Elt F)) _ _ rfl (by decide) (by decide) (e_main_call0_cst_0 V)

-- operation 7 (binary)
theorem e_main_call0_v2 : after ops V (Proc.devRef .tc main_call0_v2) = ReadP.val_main_call0_v2 (F := F) (V (Proc.devRef .tc main_arg0)) :=
  Ssa.binary_at ops W hW V 7 main_call0_v1 main_call0_v0 main_call0_v2 (maximumf : (⟨S16x512x512, .f32⟩ : BufTy).Contents (Elt F) → (⟨S16x512x512, .f32⟩ : BufTy).Contents (Elt F) → (⟨S16x512x512, .f32⟩ : BufTy).Contents (Elt F)) _ _ _ rfl (by decide) (by decide) (by decide) (e_main_call0_v1 V) (e_main_call0_v0 V)

-- operation 8 (unary)
theorem e_main_call0_v3 : after ops V (Proc.devRef .tc main_call0_v3) = ReadP.val_main_call0_v3 (F := F) (V (Proc.devRef .tc main_arg0)) :=
  Ssa.unary_at ops W hW V 8 main_call0_v2 main_call0_v3 ((broadcastInDim S16x1x512x512 ![0, 2, 3] bcast_S16x512x512_S16x1x512x512_0_2_3) : (⟨S16x512x512, .f32⟩ : BufTy).Contents (Elt F) → (⟨S16x1x512x512, .f32⟩ : BufTy).Contents (Elt F)) _ _ rfl (by decide) (by decide) (e_main_call0_v2 V)

-- operation 9 (unary)
theorem e_main_call0_v4 : after ops V (Proc.devRef .tc main_call0_v4) = ReadP.val_main_call0_v4 (F := F) (V (Proc.devRef .tc main_arg0)) :=
  Ssa.unary_at ops W hW V 9 main_call0_v3 main_call0_v4 ((broadcastInDim S16x4x512x512 ![0, 1, 2, 3] bcast_S16x1x512x512_S16x4x512x512_0_1_2_3) : (⟨S16x1x512x512, .f32⟩ : BufTy).Contents (Elt F) → (⟨S16x4x512x512, .f32⟩ : BufTy).Contents (Elt F)) _ _ rfl (by decide) (by decide) (e_main_call0_v3 V)

-- operation 10 (binary)
theorem e_main_call0_v5 : after ops V (Proc.devRef .tc main_call0_v5) = ReadP.val_main_call0_v5 (F := F) (V (Proc.devRef .tc main_arg0)) :=
  Ssa.binary_at ops W hW V 10 main_arg0 main_call0_v4 main_call0_v5 (subf : (⟨S16x4x512x512, .f32⟩ : BufTy).Contents (Elt F) → (⟨S16x4x512x512, .f32⟩ : BufTy).Contents (Elt F) → (⟨S16x4x512x512, .f32⟩ : BufTy).Contents (Elt F)) _ _ _ rfl (by decide) (by decide) (by decide) (e_main_arg0 V) (e_main_call0_v4 V)

-- operation 11 (unary)
theorem e_main_call0_v6 : after ops V (Proc.devRef .tc main_call0_v6) = ReadP.val_main_call0_v6 (F := F) (V (Proc.devRef .tc main_arg0)) :=
  Ssa.unary_at ops W hW V 11 main_call0_v5 main_call0_v6 (Host.exp : (⟨S16x4x512x512, .f32⟩ : BufTy).Contents (Elt F) → (⟨S16x4x512x512, .f32⟩ : BufTy).Contents (Elt F)) _ _ rfl (by decide) (by decide) (e_main_call0_v5 V)

-- operation 12 (nullary)
theorem e_main_call0_cst_1 : after ops V (Proc.devRef .tc main_call0_cst_1) = ReadP.val_main_call0_cst_1 (F := F) :=
  Ssa.ssa_nullary ops W hW V 12 main_call0_cst_1 ((constant S_ .f32 0x00000000#32) : (⟨S_, .f32⟩ : BufTy).Contents (Elt F)) _ rfl (by decide)

-- operation 13 (binary)
theorem e_main_call0_v7 : after ops V (Proc.devRef .tc main_call0_v7) = ReadP.val_main_call0_v7 (F := F) (V (Proc.devRef .tc main_arg0)) :=
  Ssa.binary_at ops W hW V 13 main_call0_v6 main_call0_cst_1 main_call0_v7 ((fun x v => Host.reduceAdd x v reducesTo_S16x4x512x512_S16x512x512_d1 h_S_) : (⟨S16x4x512x512, .f32⟩ : BufTy).Contents (Elt F) → (⟨S_, .f32⟩ : BufTy).Contents (Elt F) → (⟨S16x512x512, .f32⟩ : BufTy).Contents (Elt F)) _ _ _ rfl (by decide) (by decide) (by decide) (e_main_call0_v6 V) (e_main_call0_cst_1 V)

-- operation 14 (unary)
theorem e_main_call0_v8 : after ops V (Proc.devRef .tc main_call0_v8) = ReadP.val_main_call0_v8 (F := F) (V (Proc.devRef .tc main_arg0)) :=
  Ssa.unary_at ops W hW V 14 main_call0_v7 main_call0_v8 ((broadcastInDim S16x1x512x512 ![0, 2, 3] bcast_S16x512x512_S16x1x512x512_0_2_3) : (⟨S16x512x512, .f32⟩ : BufTy).Contents (Elt F) → (⟨S16x1x512x512, .f32⟩ : BufTy).Contents (Elt F)) _ _ rfl (by decide) (by decide) (e_main_call0_v7 V)

-- operation 15 (unary)
theorem e_main_call0_v9 : after ops V (Proc.devRef .tc main_call0_v9) = ReadP.val_main_call0_v9 (F := F) (V (Proc.devRef .tc main_arg0)) :=
  Ssa.unary_at ops W hW V 15 main_call0_v8 main_call0_v9 (Host.log : (⟨S16x1x512x512, .f32⟩ : BufTy).Contents (Elt F) → (⟨S16x1x512x512, .f32⟩ : BufTy).Contents (Elt F)) _ _ rfl (by decide) (by decide) (e_main_call0_v8 V)

-- operation 16 (unary)
theorem e_main_call0_v10 : after ops V (Proc.devRef .tc main_call0_v10) = ReadP.val_main_call0_v10 (F := F) (V (Proc.devRef .tc main_arg0)) :=
  Ssa.unary_at ops W hW V 16 main_call0_v9 main_call0_v10 ((broadcastInDim S16x4x512x512 ![0, 1, 2, 3] bcast_S16x1x512x512_S16x4x512x512_0_1_2_3) : (⟨S16x1x512x512, .f32⟩ : BufTy).Contents (Elt F) → (⟨S16x4x512x512, .f32⟩ : BufTy).Contents (Elt F)) _ _ rfl (by decide) (by decide) (e_main_call0_v9 V)

-- operation 17 (binary)
theorem e_main_v2 : after ops V (Proc.devRef .tc main_v2) = ReadP.val_main_v2 (F := F) (V (Proc.devRef .tc main_arg0)) :=
  Ssa.binary_at ops W hW V 17 main_call0_v5 main_call0_v10 main_v2 (subf : (⟨S16x4x512x512, .f32⟩ : BufTy).Contents (Elt F) → (⟨S16x4x512x512, .f32⟩ : BufTy).Contents (Elt F) → (⟨S16x4x512x512, .f32⟩ : BufTy).Contents (Elt F)) _ _ _ rfl (by decide) (by decide) (by decide) (e_main_call0_v5 V) (e_main_call0_v10 V)

-- operation 18 (nullary)
theorem e_main_c_0 : after ops V (Proc.devRef .tc main_c_0) = ReadP.val_main_c_0 (F := F) :=
  Ssa.ssa_nullary ops W hW V 18 main_c_0 (constantI S_ 32 0#32) _ rfl (by decide)

-- operation 19 (nullary)
theorem e_main_c_1 : after ops V (Proc.devRef .tc main_c_1) = ReadP.val_main_c_1 (F := F) :=
  Ssa.ssa_nullary ops W hW V 19 main_c_1 (constantI S_ 32 3#32) _ rfl (by decide)

-- operation 20 (unary)
theorem e_main_call1_v0 : after ops V (Proc.devRef .tc main_call1_v0) = ReadP.val_main_call1_v0 (F := F) :=
  Ssa.unary_at ops W hW V 20 main_c_0 main_call1_v0 (id : (⟨S_, .i32⟩ : BufTy).Contents (Elt F) → (⟨S_, .i32⟩ : BufTy).Contents (Elt F)) _ _ rfl (by decide) (by decide) (e_main_c_0 V)

-- operation 21 (unary)
theorem e_main_call1_v1 : after ops V (Proc.devRef .tc main_call1_v1) = ReadP.val_main_call1_v1 (F := F) :=
  Ssa.unary_at ops W hW V 21 main_call1_v0 main_call1_v1 ((broadcastInDim S16x512x512 ![] bcast_S_S16x512x512) : (⟨S_, .i32⟩ : BufTy).Contents (Elt F) → (⟨S16x512x512, .i32⟩ : BufTy).Contents (Elt F)) _ _ rfl (by decide) (by decide) (e_main_call1_v0 V)

-- operation 22 (binary)
theorem e_main_call1_v2 : after ops V (Proc.devRef .tc main_call1_v2) = ReadP.val_main_call1_v2 (F := F) (V (Proc.devRef .tc main_arg1)) :=
  Ssa.binary_at ops W hW V 22 main_call1_v1 main_arg1 main_call1_v2 (maxsi : (⟨S16x512x512, .i32⟩ : BufTy).Contents (Elt F) → (⟨S16x512x512, .i32⟩ : BufTy).Contents (Elt F) → (⟨S16x512x512, .i32⟩ : BufTy).Contents (Elt F)) _ _ _ rfl (by decide) (by decide) (by decide) (e_main_call1_v1 V) (e_main_arg1 V)

-- operation 23 (unary)
theorem e_main_call1_v3 : after ops V (Proc.devRef .tc main_call1_v3) = ReadP.val_main_call1_v3 (F := F) :=
  Ssa.unary_at ops W hW V 23 main_c_1 main_call1_v3 (id : (⟨S_, .i32⟩ : BufTy).Contents (Elt F) → (⟨S_, .i32⟩ : BufTy).Contents (Elt F)) _ _ rfl (by decide) (by decide) (e_main_c_1 V)

-- operation 24 (unary)
theorem e_main_call1_v4 : after ops V (Proc.devRef .tc main_call1_v4) = ReadP.val_main_call1_v4 (F := F) :=
  Ssa.unary_at ops W hW V 24 main_call1_v3 main_call1_v4 ((broadcastInDim S16x512x512 ![] bcast_S_S16x512x512) : (⟨S_, .i32⟩ : BufTy).Contents (Elt F) → (⟨S16x512x512, .i32⟩ : BufTy).Contents (Elt F)) _ _ rfl (by decide) (by decide) (e_main_call1_v3 V)

-- operation 25 (binary)
theorem e_main_v3 : after ops V (Proc.devRef .tc main_v3) = ReadP.val_main_v3 (F := F) (V (Proc.devRef .tc main_arg1)) :=
  Ssa.binary_at ops W hW V 25 main_call1_v4 main_call1_v2 main_v3 (minsi : (⟨S16x512x512, .i32⟩ : BufTy).Contents (Elt F) → (⟨S16x512x512, .i32⟩ : BufTy).Contents (Elt F) → (⟨S16x512x512, .i32⟩ : BufTy).Contents (Elt F)) _ _ _ rfl (by decide) (by decide) (by decide) (e_main_call1_v4 V) (e_main_call1_v2 V)

-- operation 26 (unary)
theorem e_main_v4 : after ops V (Proc.devRef .tc main_v4) = ReadP.val_main_v4 (F := F) (V (Proc.devRef .tc main_arg1)) :=
  Ssa.unary_at ops W hW V 26 main_v3 main_v4 (broadcastInDim S16x1x512x512 ![0, 2, 3] bcast_S16x512x512_S16x1x512x512_0_2_3 : (⟨S16x512x512, .i32⟩ : BufTy).Contents (Elt F) → (⟨S16x1x512x512, .i32⟩ : BufTy).Contents (Elt F)) _ _ rfl (by decide) (by decide) (e_main_v3 V)

-- operation 27 (nullary)
theorem e_main_call2_c : after ops V (Proc.devRef .tc main_call2_c) = ReadP.val_main_call2_c (F := F) :=
  Ssa.ssa_nullary ops W hW V 27 main_call2_c ((constantI S_ 32 0#32) : (⟨S_, .i32⟩ : BufTy).Contents (Elt F)) _ rfl (by decide)

-- operation 28 (unary)
theorem e_main_call2_v0 : after ops V (Proc.devRef .tc main_call2_v0) = ReadP.val_main_call2_v0 (F := F) :=
  Ssa.unary_at ops W hW V 28 main_call2_c main_call2_v0 ((broadcastInDim S16x1x512x512 ![] bcast_S_S16x1x512x512) : (⟨S_, .i32⟩ : BufTy).Contents (Elt F) → (⟨S16x1x512x512, .i32⟩ : BufTy).Contents (Elt F)) _ _ rfl (by decide) (by decide) (e_main_call2_c V)

-- operation 29 (binary)
theorem e_main_call2_v1 : after ops V (Proc.devRef .tc main_call2_v1) = ReadP.val_main_call2_v1 (F := F) (V (Proc.devRef .tc main_arg1)) :=
  Ssa.binary_at ops W hW V 29 main_v4 main_call2_v0 main_call2_v1 ((cmpi .slt) : (⟨S16x1x512x512, .i32⟩ : BufTy).Contents (Elt F) → (⟨S16x1x512x512, .i32⟩ : BufTy).Contents (Elt F) → (⟨S16x1x512x512, .i1⟩ : BufTy).Contents (Elt F)) _ _ _ rfl (by decide) (by decide) (by decide) (e_main_v4 V) (e_main_call2_v0 V)

-- operation 30 (nullary)
theorem e_main_call2_c_0 : after ops V (Proc.devRef .tc main_call2_c_0) = ReadP.val_main_call2_c_0 (F := F) :=
  Ssa.ssa_nullary ops W hW V 30 main_call2_c_0 ((constantI S_ 32 4#32) : (⟨S_, .i32⟩ : BufTy).Contents (Elt F)) _ rfl (by decide)

-- operation 31 (unary)
theorem e_main_call2_v2 : after ops V (Proc.devRef .tc main_call2_v2) = ReadP.val_main_call2_v2 (F := F) :=
  Ssa.unary_at ops W hW V 31 main_call2_c_0 main_call2_v2 ((broadcastInDim S16x1x512x512 ![] bcast_S_S16x1x512x512) : (⟨S_, .i32⟩ : BufTy).Contents (Elt F) → (⟨S16x1x512x512, .i32⟩ : BufTy).Contents (Elt F)) _ _ rfl (by decide) (by decide) (e_main_call2_c_0 V)

-- operation 32 (binary)
theorem e_main_call2_v3 : after ops V (Proc.devRef .tc main_call2_v3) = ReadP.val_main_call2_v3 (F := F) (V (Proc.devRef .tc main_arg1)) :=
  Ssa.binary_at ops W hW V 32 main_v4 main_call2_v2 main_call2_v3 (addi : (⟨S16x1x512x512, .i32⟩ : BufTy).Contents (Elt F) → (⟨S16x1x512x512, .i32⟩ : BufTy).Contents (Elt F) → (⟨S16x1x512x512, .i32⟩ : BufTy).Contents (Elt F)) _ _ _ rfl (by decide) (by decide) (by decide) (e_main_v4 V) (e_main_call2_v2 V)

-- operation 33 (ternary)
theorem e_main_call2_v4 : after ops V (Proc.devRef .tc main_call2_v4) = ReadP.val_main_call2_v4 (F := F) (V (Proc.devRef .tc main_arg1)) :=
  Ssa.ternary_at ops W hW V 33 main_call2_v1 main_call2_v3 main_v4 main_call2_v4 (select : (⟨S16x1x512x512, .i1⟩ : BufTy).Contents (Elt F) → (⟨S16x1x512x512, .i32⟩ : BufTy).Contents (Elt F) → (⟨S16x1x512x512, .i32⟩ : BufTy).Contents (Elt F) → (⟨S16x1x512x512, .i32⟩ : BufTy).Contents (Elt F)) _ _ _ _ rfl (by decide) (by decide) (by decide) (by decide) (e_main_call2_v1 V) (e_main_call2_v3 V) (e_main_v4 V)

-- operation 34 (reshape)
theorem e_main_call2_v5 : after ops V (Proc.devRef .tc main_call2_v5) = ReadP.val_main_call2_v5 (F := F) (V (Proc.devRef .tc main_arg1)) :=
  Ssa.reshape_at ops W hW V 34 main_call2_v4 main_call2_v5 _ _ _ _ rfl (by decide) (by decide) (e_main_call2_v4 V)

-- operation 35 (nullary)
theorem e_main_call2_c_1 : after ops V (Proc.devRef .tc main_call2_c_1) = ReadP.val_main_call2_c_1 (F := F) :=
  Ssa.ssa_nullary ops W hW V 35 main_call2_c_1 ((constantI S1 32 3#32) : (⟨S1, .i32⟩ : BufTy).Contents (Elt F)) _ rfl (by decide)

-- operation 36 (nullary)
theorem e_main_call2_c_2 : after ops V (Proc.devRef .tc main_call2_c_2) = ReadP.val_main_call2_c_2 (F := F) :=
  Ssa.ssa_nullary ops W hW V 36 main_call2_c_2 ((constantI S_ 32 0#32) : (⟨S_, .i32⟩ : BufTy).Contents (Elt F)) _ rfl (by decide)

-- operation 37 (unary)
theorem e_main_call2_v6 : after ops V (Proc.devRef .tc main_call2_v6) = ReadP.val_main_call2_v6 (F := F) :=
  Ssa.unary_at ops W hW V 37 main_call2_c_2 main_call2_v6 ((broadcastInDim S16x1x512x512x1 ![] bcast_S_S16x1x512x512x1) : (⟨S_, .i32⟩ : BufTy).Contents (Elt F) → (⟨S16x1x512x512x1, .i32⟩ : BufTy).Contents (Elt F)) _ _ rfl (by decide) (by decide) (e_main_call2_c_2 V)

-- operation 38 (binary)
theorem e_main_call2_v7 : after ops V (Proc.devRef .tc main_call2_v7) = ReadP.val_main_call2_v7 (F := F) (V (Proc.devRef .tc main_arg1)) :=
  Ssa.binary_at ops W hW V 38 main_call2_v5 main_call2_v6 main_call2_v7 ((cmpi .sge) : (⟨S16x1x512x512x1, .i32⟩ : BufTy).Contents (Elt F) → (⟨S16x1x512x512x1, .i32⟩ : BufTy).Contents (Elt F) → (⟨S16x1x512x512x1, .i1⟩ : BufTy).Contents (Elt F)) _ _ _ rfl (by decide) (by decide) (by decide) (e_main_call2_v5 V) (e_main_call2_v6 V)

-- operation 39 (unary)
theorem e_main_call2_v8 : after ops V (Proc.devRef .tc main_call2_v8) = ReadP.val_main_call2_v8 (F := F) :=
  Ssa.unary_at ops W hW V 39 main_call2_c_1 main_call2_v8 ((broadcastInDim S1x1x1x1x1 ![4] bcast_S1_S1x1x1x1x1_4) : (⟨S1, .i32⟩ : BufTy).Contents (Elt F) → (⟨S1x1x1x1x1, .i32⟩ : BufTy).Contents (Elt F)) _ _ rfl (by decide) (by decide) (e_main_call2_c_1 V)

-- operation 40 (unary)
theorem e_main_call2_v9 : after ops V (Proc.devRef .tc main_call2_v9) = ReadP.val_main_call2_v9 (F := F) :=
  Ssa.unary_at ops W hW V 40 main_call2_v8 main_call2_v9 ((broadcastInDim S16x1x512x512x1 ![0, 1, 2, 3, 4] bcast_S1x1x1x1x1_S16x1x512x512x1_0_1_2_3_4) : (⟨S1x1x1x1x1, .i32⟩ : BufTy).Contents (Elt F) → (⟨S16x1x512x512x1, .i32⟩ : BufTy).Contents (Elt F)) _ _ rfl (by decide) (by decide) (e_main_call2_v8 V)

-- operation 41 (binary)
theorem e_main_call2_v10 : after ops V (Proc.devRef .tc main_call2_v10) = ReadP.val_main_call2_v10 (F := F) (V (Proc.devRef .tc main_arg1)) :=
  Ssa.binary_at ops W hW V 41 main_call2_v5 main_call2_v9 main_call2_v10 ((cmpi .sle) : (⟨S16x1x512x512x1, .i32⟩ : BufTy).Contents (Elt F) → (⟨S16x1x512x512x1, .i32⟩ : BufTy).Contents (Elt F) → (⟨S16x1x512x512x1, .i1⟩ : BufTy).Contents (Elt F)) _ _ _ rfl (by decide) (by decide) (by decide) (e_main_call2_v5 V) (e_main_call2_v9 V)

-- operation 42 (binary)
theorem e_main_call2_v11 : after ops V (Proc.devRef .tc main_call2_v11) = ReadP.val_main_call2_v11 (F := F) (V (Proc.devRef .tc main_arg1)) :=
  Ssa.binary_at ops W hW V 42 main_call2_v7 main_call2_v10 main_call2_v11 (andi : (⟨S16x1x512x512x1, .i1⟩ : BufTy).Contents (Elt F) → (⟨S16x1x512x512x1, .i1⟩ : BufTy).Contents (Elt F) → (⟨S16x1x512x512x1, .i1⟩ : BufTy).Contents (Elt F)) _ _ _ rfl (by decide) (by decide) (by decide) (e_main_call2_v7 V) (e_main_call2_v10 V)

-- operation 43 (nullary)
theorem e_main_call2_c_3 : after ops V (Proc.devRef .tc main_call2_c_3) = ReadP.val_main_call2_c_3 (F := F) :=
  Ssa.ssa_nullary ops W hW V 43 main_call2_c_3 ((constantI S_ 1 1#1) : (⟨S_, .i1⟩ : BufTy).Contents (Elt F)) _ rfl (by decide)

-- operation 44 (binary)
theorem e_main_call2_v12 : after ops V (Proc.devRef .tc main_call2_v12) = ReadP.val_main_call2_v12 (F := F) (V (Proc.devRef .tc main_arg1)) :=
  Ssa.binary_at ops W hW V 44 main_call2_v11 main_call2_c_3 main_call2_v12 ((fun x v => Host.reduce IntOp.andi x v reducesTo_S16x1x512x512x1_S16x1x512x512_d4 h_S_) : (⟨S16x1x512x512x1, .i1⟩ : BufTy).Contents (Elt F) → (⟨S_, .i1⟩ : BufTy).Contents (Elt F) → (⟨S16x1x512x512, .i1⟩ : BufTy).Contents (Elt F)) _ _ _ rfl (by decide) (by decide) (by decide) (e_main_call2_v11 V) (e_main_call2_c_3 V)

-- operation 45 (binary)
theorem e_main_call2_v13 : after ops V (Proc.devRef .tc main_call2_v13) = ReadP.val_main_call2_v13 (F := F) (V (Proc.devRef .tc main_arg0)) (V (Proc.devRef .tc main_arg1)) :=
  Ssa.binary_at ops W hW V 45 main_v2 main_call2_v5 main_call2_v13 ((fun x i => Host.gather gather_S16x4x512x512_S16x1x512x512x1_S16x1x512x512_n_1_023_023_1_4_1111 x i) : (⟨S16x4x512x512, .f32⟩ : BufTy).Contents (Elt F) → (⟨S16x1x512x512x1, .i32⟩ : BufTy).Contents (Elt F) → (⟨S16x1x512x512, .f32⟩ : BufTy).Contents (Elt F)) _ _ _ rfl (by decide) (by decide) (by decide) (e_main_v2 V) (e_main_call2_v5 V)

-- operation 46 (nullary)
theorem e_main_call2_cst : after ops V (Proc.devRef .tc main_call2_cst) = ReadP.val_main_call2_cst (F := F) :=
  Ssa.ssa_nullary ops W hW V 46 main_call2_cst ((constant S_ .f32 0x7FC00000#32) : (⟨S_, .f32⟩ : BufTy).Contents (Elt F)) _ rfl (by decide)

-- operation 47 (unary)
theorem e_main_call2_v14 : after ops V (Proc.devRef .tc main_call2_v14) = ReadP.val_main_call2_v14 (F := F) :=
  Ssa.unary_at ops W hW V 47 main_call2_cst main_call2_v14 ((broadcastInDim S16x1x512x512 ![] bcast_S_S16x1x512x512) : (⟨S_, .f32⟩ : BufTy).Contents (Elt F) → (⟨S16x1x512x512, .f32⟩ : BufTy).Contents (Elt F)) _ _ rfl (by decide) (by decide) (e_main_call2_cst V)

-- operation 48 (ternary)
theorem e_main_v5 : after ops V (Proc.devRef .tc main_v5) = ReadP.val_main_v5 (F := F) (V (Proc.devRef .tc main_arg0)) (V (Proc.devRef .tc main_arg1)) :=
  Ssa.ternary_at ops W hW V 48 main_call2_v12 main_call2_v13 main_call2_v14 main_v5 (select : (⟨S16x1x512x512, .i1⟩ : BufTy).Contents (Elt F) → (⟨S16x1x512x512, .f32⟩ : BufTy).Contents (Elt F) → (⟨S16x1x512x512, .f32⟩ : BufTy).Contents (Elt F) → (⟨S16x1x512x512, .f32⟩ : BufTy).Contents (Elt F)) _ _ _ _ rfl (by decide) (by decide) (by decide) (by decide) (e_main_call2_v12 V) (e_main_call2_v13 V) (e_main_call2_v14 V)

-- operation 49 (reshape)
theorem e_main_v6 : after ops V (Proc.devRef .tc main_v6) = ReadP.val_main_v6 (F := F) (V (Proc.devRef .tc main_arg0)) (V (Proc.devRef .tc main_arg1)) :=
  Ssa.reshape_at ops W hW V 49 main_v5 main_v6 _ _ _ _ rfl (by decide) (by decide) (e_main_v5 V)

-- operation 50 (unary)
theorem e_main_v7 : after ops V (Proc.devRef .tc main_v7) = ReadP.val_main_v7 (F := F) (V (Proc.devRef .tc main_arg0)) (V (Proc.devRef .tc main_arg1)) :=
  Ssa.unary_at ops W hW V 50 main_v6 main_v7 (Host.negf : (⟨S16x512x512, .f32⟩ : BufTy).Contents (Elt F) → (⟨S16x512x512, .f32⟩ : BufTy).Contents (Elt F)) _ _ rfl (by decide) (by decide) (e_main_v6 V)

-- operation 51 (unary)
theorem e_main_v8 : after ops V (Proc.devRef .tc main_v8) = ReadP.val_main_v8 (F := F) (V (Proc.devRef .tc main_arg1)) :=
  Ssa.unary_at ops W hW V 51 main_v1 main_v8 (uitofp .f32 : (⟨S16x512x512, .i1⟩ : BufTy).Contents (Elt F) → (⟨S16x512x512, .f32⟩ : BufTy).Contents (Elt F)) _ _ rfl (by decide) (by decide) (e_main_v1 V)

-- operation 52 (binary)
theorem e_main_v9 : after ops V (Proc.devRef .tc main_v9) = ReadP.val_main_v9 (F := F) (V (Proc.devRef .tc main_arg0)) (V (Proc.devRef .tc main_arg1)) :=
  Ssa.binary_at ops W hW V 52 main_v7 main_v8 main_v9 (mulf : (⟨S16x512x512, .f32⟩ : BufTy).Contents (Elt F) → (⟨S16x512x512, .f32⟩ : BufTy).Contents (Elt F) → (⟨S16x512x512, .f32⟩ : BufTy).Contents (Elt F)) _ _ _ rfl (by decide) (by decide) (by decide) (e_main_v7 V) (e_main_v8 V)

-- operation 53 (nullary)
theorem e_main_c_2 : after ops V (Proc.devRef .tc main_c_2) = ReadP.val_main_c_2 (F := F) :=
  Ssa.ssa_nullary ops W hW V 53 main_c_2 (constantI S_ 32 0#32) _ rfl (by decide)

-- operation 54 (unary)
theorem e_main_v10 : after ops V (Proc.devRef .tc main_v10) = ReadP.val_main_v10 (F := F) :=
  Ssa.unary_at ops W hW V 54 main_c_2 main_v10 (broadcastInDim S16x512x512 ![] bcast_S_S16x512x512 : (⟨S_, .i32⟩ : BufTy).Contents (Elt F) → (⟨S16x512x512, .i32⟩ : BufTy).Contents (Elt F)) _ _ rfl (by decide) (by decide) (e_main_c_2 V)

-- operation 55 (binary)
theorem e_main_v11 : after ops V (Proc.devRef .tc main_v11) = ReadP.val_main_v11 (F := F) (V (Proc.devRef .tc main_arg2)) :=
  Ssa.binary_at ops W hW V 55 main_arg2 main_v10 main_v11 (cmpi .eq : (⟨S16x512x512, .i32⟩ : BufTy).Contents (Elt F) → (⟨S16x512x512, .i32⟩ : BufTy).Contents (Elt F) → (⟨S16x512x512, .i1⟩ : BufTy).Contents (Elt F)) _ _ _ rfl (by decide) (by decide) (by decide) (e_main_arg2 V) (e_main_v10 V)

-- operation 56 (nullary)
theorem e_main_cst : after ops V (Proc.devRef .tc main_cst) = ReadP.val_main_cst (F := F) :=
  Ssa.ssa_nullary ops W hW V 56 main_cst (constant S_ .f32 0x3F800000#32) _ rfl (by decide)

-- operation 57 (nullary)
theorem e_main_cst_3 : after ops V (Proc.devRef .tc main_cst_3) = ReadP.val_main_cst_3 (F := F) :=
  Ssa.ssa_nullary ops W hW V 57 main_cst_3 (constant S_ .f32 0x3F000000#32) _ rfl (by decide)

-- operation 58 (unary)
theorem e_main_call3_v0 : after ops V (Proc.devRef .tc main_call3_v0) = ReadP.val_main_call3_v0 (F := F) :=
  Ssa.unary_at ops W hW V 58 main_cst main_call3_v0 ((broadcastInDim S16x512x512 ![] bcast_S_S16x512x512) : (⟨S_, .f32⟩ : BufTy).Contents (Elt F) → (⟨S16x512x512, .f32⟩ : BufTy).Contents (Elt F)) _ _ rfl (by decide) (by decide) (e_main_cst V)

-- operation 59 (unary)
theorem e_main_call3_v1 : after ops V (Proc.devRef .tc main_call3_v1) = ReadP.val_main_call3_v1 (F := F) :=
  Ssa.unary_at ops W hW V 59 main_cst_3 main_call3_v1 ((broadcastInDim S16x512x512 ![] bcast_S_S16x512x512) : (⟨S_, .f32⟩ : BufTy).Contents (Elt F) → (⟨S16x512x512, .f32⟩ : BufTy).Contents (Elt F)) _ _ rfl (by decide) (by decide) (e_main_cst_3 V)

-- operation 60 (ternary)
theorem e_main_v12 : after ops V (Proc.devRef .tc main_v12) = ReadP.val_main_v12 (F := F) (V (Proc.devRef .tc main_arg2)) :=
  Ssa.ternary_at ops W hW V 60 main_v11 main_call3_v0 main_call3_v1 main_v12 (select : (⟨S16x512x512, .i1⟩ : BufTy).Contents (Elt F) → (⟨S16x512x512, .f32⟩ : BufTy).Contents (Elt F) → (⟨S16x512x512, .f32⟩ : BufTy).Contents (Elt F) → (⟨S16x512x512, .f32⟩ : BufTy).Contents (Elt F)) _ _ _ _ rfl (by decide) (by decide) (by decide) (by decide) (e_main_v11 V) (e_main_call3_v0 V) (e_main_call3_v1 V)

-- operation 61 (unary)
theorem e_main_v13 : after ops V (Proc.devRef .tc main_v13) = ReadP.val_main_v13 (F := F) (V (Proc.devRef .tc main_arg2)) :=
  Ssa.unary_at ops W hW V 61 main_v12 main_v13 (id : (⟨S16x512x512, .f32⟩ : BufTy).Contents (Elt F) → (⟨S16x512x512, .f32⟩ : BufTy).Contents (Elt F)) _ _ rfl (by decide) (by decide) (e_main_v12 V)

-- operation 62 (binary)
theorem e_main_v14 : after ops V (Proc.devRef .tc main_v14) = ReadP.val_main_v14 (F := F) (V (Proc.devRef .tc main_arg0)) (V (Proc.devRef .tc main_arg1)) (V (Proc.devRef .tc main_arg2)) :=
  Ssa.binary_at ops W hW V 62 main_v13 main_v9 main_v14 (mulf : (⟨S16x512x512, .f32⟩ : BufTy).Contents (Elt F) → (⟨S16x512x512, .f32⟩ : BufTy).Contents (Elt F) → (⟨S16x512x512, .f32⟩ : BufTy).Contents (Elt F)) _ _ _ rfl (by decide) (by decide) (by decide) (e_main_v13 V) (e_main_v9 V)

-- operation 63 (nullary)
theorem e_main_cst_4 : after ops V (Proc.devRef .tc main_cst_4) = ReadP.val_main_cst_4 (F := F) :=
  Ssa.ssa_nullary ops W hW V 63 main_cst_4 (constant S_ .f32 0x00000000#32) _ rfl (by decide)

-- operation 64 (binary)
theorem e_main_v15 : after ops V (Proc.devRef .tc main_v15) = ReadP.val_main_v15 (F := F) (V (Proc.devRef .tc main_arg0)) (V (Proc.devRef .tc main_arg1)) (V (Proc.devRef .tc main_arg2)) :=
  Ssa.binary_at ops W hW V 64 main_v14 main_cst_4 main_v15 ((fun x v => Host.reduceAdd x v reducesTo_S16x512x512_S_d0_1_2 h_S_) : (⟨S16x512x512, .f32⟩ : BufTy).Contents (Elt F) → (⟨S_, .f32⟩ : BufTy).Contents (Elt F) → (⟨S_, .f32⟩ : BufTy).Contents (Elt F)) _ _ _ rfl (by decide) (by decide) (by decide) (e_main_v14 V) (e_main_cst_4 V)

-- operation 65 (unary)
theorem e_main_v16 : after ops V (Proc.devRef .tc main_v16) = ReadP.val_main_v16 (F := F) (V (Proc.devRef .tc main_arg1)) :=
  Ssa.unary_at ops W hW V 65 main_v1 main_v16 ((extui 32 · natLt_1_32) : (⟨S16x512x512, .i1⟩ : BufTy).Contents (Elt F) → (⟨S16x512x512, .i32⟩ : BufTy).Contents (Elt F)) _ _ rfl (by decide) (by decide) (e_main_v1 V)

-- operation 66 (nullary)
theorem e_main_c_5 : after ops V (Proc.devRef .tc main_c_5) = ReadP.val_main_c_5 (F := F) :=
  Ssa.ssa_nullary ops W hW V 66 main_c_5 (constantI S_ 32 0#32) _ rfl (by decide)

-- operation 67 (binary)
theorem e_main_v17 : after ops V (Proc.devRef .tc main_v17) = ReadP.val_main_v17 (F := F) (V (Proc.devRef .tc main_arg1)) :=
  Ssa.binary_at ops W hW V 67 main_v16 main_c_5 main_v17 ((fun x v => Host.reduce IntOp.addi x v reducesTo_S16x512x512_S_d0_1_2 h_S_) : (⟨S16x512x512, .i32⟩ : BufTy).Contents (Elt F) → (⟨S_, .i32⟩ : BufTy).Contents (Elt F) → (⟨S_, .i32⟩ : BufTy).Contents (Elt F)) _ _ _ rfl (by decide) (by decide) (by decide) (e_main_v16 V) (e_main_c_5 V)

-- operation 68 (unary)
theorem e_main_v18 : after ops V (Proc.devRef .tc main_v18) = ReadP.val_main_v18 (F := F) (V (Proc.devRef .tc main_arg1)) :=
  Ssa.unary_at ops W hW V 68 main_v17 main_v18 (sitofp .f32 : (⟨S_, .i32⟩ : BufTy).Contents (Elt F) → (⟨S_, .f32⟩ : BufTy).Contents (Elt F)) _ _ rfl (by decide) (by decide) (e_main_v17 V)

-- operation 69 (binary)
theorem e_main_v19 : after ops V (Proc.devRef .tc main_v19) = ReadP.val_main_v19 (F := F) (V (Proc.devRef .tc main_arg0)) (V (Proc.devRef .tc main_arg1)) (V (Proc.devRef .tc main_arg2)) :=
  Ssa.binary_at ops W hW V 69 main_v15 main_v18 main_v19 (Host.divf : (⟨S_, .f32⟩ : BufTy).Contents (Elt F) → (⟨S_, .f32⟩ : BufTy).Contents (Elt F) → (⟨S_, .f32⟩ : BufTy).Contents (Elt F)) _ _ _ rfl (by decide) (by decide) (by decide) (e_main_v15 V) (e_main_v18 V)

end Cert.ReferenceIdeal.RunP

end
-- ==== Proof.RefRun.lean ====
/-
  The reference's run. Every weakly fair execution of @main on the TensorCores terminates, and it leaves the result
  buffer at the reference's value of the three arguments' launch contents and the arguments as they were: the run of a
  straight line leaves every buffer at the fold of the operations over the launch contents, and that fold, read one
  operation at a time, is the value `val_main_v19` at the result buffer and the starting contents at an argument.
-/
import proofs.«418493_j18562848654175_3_alg».proof.Proof.RefReadP
import proofs.«418493_j18562848654175_3_alg».proof.Proof.LibSsa
import proofs.«418493_j18562848654175_3_alg».proof.Proof.RefStages
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- On every device, for any float values, from any memory with zero counters: every weakly fair execution of @main
    terminates with the result buffer at the reference's value of the arguments' launch contents, and the arguments
    unchanged. The launch contents of a device, as a valuation, are the memory at that device's locations. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19)
        = Cert.ReferenceIdeal.ReadP.val_main_v19 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v19).trans (e_main_v19 (launchContents m c)),
      (h c main_arg0).trans (e_main_arg0 (launchContents m c)),
      (h c main_arg1).trans (e_main_arg1 (launchContents m c)),
      (h c main_arg2).trans (e_main_arg2 (launchContents m c))⟩)
    (run_seq scopedRefs_eq scopedSems_eq defs main (fun _ => ops) main_eq (fun _ => ops_sub) m ρ)

end Cert.ReferenceIdeal.RunP

end
-- ==== Proof.RefValueA.lean ====
/-
  The reference's log-softmax over the class axis, read at one element.

  For a pixel (a, c, d) the reference takes the largest of the four logits (a fold of max from the −∞ pattern over the
  class axis, then once more max against −∞), subtracts it from each logit, and subtracts from that the logarithm of
  the sum of the four exponentials: at class k the value is (shifted k − lse) in the specification's words.
-/
import proofs.«418493_j18562848654175_3_alg».proof.Proof.RefReadP
import proofs.«418493_j18562848654175_3_alg».proof.Proof.Spec

noncomputable section

open scoped BigOperators

namespace Cert.ReferenceIdeal.RefValue

open Cert.ReferenceIdeal Cert.ReferenceIdeal.Gen Cert.ReferenceIdeal.ReadP Idealize.ShloMosaic
  Idealize.ShloMosaic.ValueIdx Cert.Loss

/-- The class-axis reduction's shape fact in the form that names the index a class is inserted at. -/
theorem reduces_cls : S16x4x512x512.Reduces [1] S16x512x512 := by decide

/-- A pixel's index with class k inserted on the class axis. -/
theorem lift_cls (a : Fin 16) (c d : Fin 512) (k : Fin 4) :
    reduces_cls.lift (ix3 a c d) k = ix4 a k c d := by
  funext e
  exact Fin.ext (by match e with | ⟨0, _⟩ => rfl | ⟨1, _⟩ => rfl | ⟨2, _⟩ => rfl | ⟨3, _⟩ => rfl)

/-- The maximum over the class axis at a pixel is the fold of max over the four logits. -/
theorem max_cls (x : SLog.Idx → EReal) (a : Fin 16) (c d : Fin 512) :
    val_main_call0_v0 (F := Ideal) x (ix3 a c d) = top x (ix3 a c d) := by
  unfold val_main_call0_v0
  refine (Host.reduce_eq_fold_single _ _ _ _ reduces_cls _ _).trans ?_
  refine Finset.fold_congr (fun k _ => ?_)
  exact congrArg x (lift_cls a c d k)

/-- Taking max with −∞ once more changes nothing: −∞ is where the fold starts, so it is below the fold. -/
theorem top_read (x : SLog.Idx → EReal) (a : Fin 16) (c d : Fin 512) :
    val_main_call0_v2 (F := Ideal) x (ix3 a c d) = top x (ix3 a c d) := by
  rw [val_main_call0_v2_apply, val_main_call0_v1_apply, val_main_call0_cst_0_apply, max_cls]
  exact max_eq_right ((Finset.le_fold_max _).mpr (Or.inl le_rfl))

/-! The broadcasts read the pixel of an element. -/

theorem idx_v4 (a : Fin 16) (k : Fin 4) (c d : Fin 512) :
    idx_main_call0_v4 (ix4 a k c d) = ix4 a (0 : Fin 1) c d := by
  funext e
  exact Fin.ext (by match e with | ⟨0, _⟩ => rfl | ⟨1, _⟩ => rfl | ⟨2, _⟩ => rfl | ⟨3, _⟩ => rfl)

theorem idx_v3 (a : Fin 16) (c d : Fin 512) :
    idx_main_call0_v3 (ix4 a (0 : Fin 1) c d) = ix3 a c d := by
  funext e
  exact Fin.ext (by match e with | ⟨0, _⟩ => rfl | ⟨1, _⟩ => rfl | ⟨2, _⟩ => rfl)

theorem idx_v10 (a : Fin 16) (k : Fin 4) (c d : Fin 512) :
    idx_main_call0_v10 (ix4 a k c d) = ix4 a (0 : Fin 1) c d := by
  funext e
  exact Fin.ext (by match e with | ⟨0, _⟩ => rfl | ⟨1, _⟩ => rfl | ⟨2, _⟩ => rfl | ⟨3, _⟩ => rfl)

theorem idx_v8 (a : Fin 16) (c d : Fin 512) :
    idx_main_call0_v8 (ix4 a (0 : Fin 1) c d) = ix3 a c d := by
  funext e
  exact Fin.ext (by match e with | ⟨0, _⟩ => rfl | ⟨1, _⟩ => rfl | ⟨2, _⟩ => rfl)

theorem idx_v7 (a : Fin 16) (c d : Fin 512) (k : Fin 4) :
    idx_main_call0_v7 (ix3 a c d) k = ix4 a k c d := by
  funext e
  exact Fin.ext (by match e with | ⟨0, _⟩ => rfl | ⟨1, _⟩ => rfl | ⟨2, _⟩ => rfl | ⟨3, _⟩ => rfl)

/-- A logit less the pixel's largest one. -/
theorem shifted_read (x : SLog.Idx → EReal) (a : Fin 16) (k : Fin 4) (c d : Fin 512) :
    val_main_call0_v5 (F := Ideal) x (ix4 a k c d) = shifted x (ix3 a c d) k := by
  rw [val_main_call0_v5_apply, val_main_call0_v4_apply, idx_v4, val_main_call0_v3_apply, idx_v3, top_read]
  rfl

/-- The sum of the four exponentials, from the zero pattern. -/
theorem sumexp_read (x : SLog.Idx → EReal) (a : Fin 16) (c d : Fin 512) :
    val_main_call0_v7 (F := Ideal) x (ix3 a c d) = ∑ k : Fin 4, Ideal.exp (shifted x (ix3 a c d) k) := by
  rw [val_main_call0_v7_apply, val_main_call0_cst_1_apply, Ideal.ofBits_def, Ideal.ofBits_zero_f32, zero_add]
  refine Finset.sum_congr rfl (fun k _ => ?_)
  rw [idx_v7, val_main_call0_v6_apply, shifted_read, Ideal.hostUnary_exp_def]

/-- THE LOG-SOFTMAX AT AN ELEMENT: the shifted logit less the logarithm of the sum of the exponentials. -/
theorem logsoftmax_read (x : SLog.Idx → EReal) (a : Fin 16) (k : Fin 4) (c d : Fin 512) :
    val_main_v2 (F := Ideal) x (ix4 a k c d) = shifted x (ix3 a c d) k - lse x (ix3 a c d) := by
  rw [val_main_v2_apply, shifted_read, val_main_call0_v10_apply, idx_v10, val_main_call0_v9_apply,
    val_main_call0_v8_apply, idx_v8, sumexp_read, Ideal.hostUnary_log_def]
  rfl

end Cert.ReferenceIdeal.RefValue

end
-- ==== Proof.RefValueB.lean ====
/-
  The reference's take along the class axis, read at one element.

  The target word is clamped into 0 … 3 before it is used as an index. For a clamped word the take's own index
  normalisation does nothing: the word is not below zero, so nothing is added to it; it lies between 0 and 3, so the
  in-range bit is set on the one component of the index vector and the conjunction over that size-one axis, which
  starts from true, is true; the select therefore takes the gathered element, and the fill value is never read. The
  gather clamps a start index that is already in range: at (a, 0, c, d) it reads the operand at the class the clamped
  word names, in the same batch, row and column.
-/
import proofs.«418493_j18562848654175_3_alg».proof.Proof.RefReadP
import proofs.«418493_j18562848654175_3_alg».proof.Proof.Spec

noncomputable section

open scoped BigOperators

namespace Cert.ReferenceIdeal.RefValue

open Cert.ReferenceIdeal Cert.ReferenceIdeal.Gen Cert.ReferenceIdeal.ReadP Idealize.ShloMosaic
  Idealize.ShloMosaic.ValueIdx Cert.Loss

/-! ## The clamped word -/

/-- The clamp at a pixel: min 3 (max 0 target). -/
theorem clip_read (tg : SPix.Idx → BitVec 32) (i : SPix.Idx) : val_main_v3 (F := Ideal) tg i = clip (tg i) := by
  rw [val_main_v3_apply, val_main_call1_v4_apply, val_main_call1_v3_apply, val_main_c_1_apply,
    val_main_call1_v2_apply, val_main_call1_v1_apply, val_main_call1_v0_apply, val_main_c_0_apply]
  rfl

/-- A clamped word is not below zero … -/
theorem clip_slt (t : BitVec 32) : IntOp.cmpi .slt (clip t) 0#32 = 0#1 := by
  rcases clip_cases t with h | h | h | h <;> rw [h] <;> decide
/-- … is at least zero … -/
theorem clip_sge (t : BitVec 32) : IntOp.cmpi .sge (clip t) 0#32 = 1#1 := by
  rcases clip_cases t with h | h | h | h <;> rw [h] <;> decide
/-- … and at most three. -/
theorem clip_sle (t : BitVec 32) : IntOp.cmpi .sle (clip t) 3#32 = 1#1 := by
  rcases clip_cases t with h | h | h | h <;> rw [h] <;> decide
/-- Read signed and clamped into 0 … 3 once more, it is its own value. -/
theorem clip_index (t : BitVec 32) : min (clip t).toInt.toNat 3 = (clip t).toNat := by
  rcases clip_cases t with h | h | h | h <;> rw [h] <;> decide

/-! ## The index array the take is given, and its normalisation -/

/-- An element of the [16, 1, 512, 512] index array after "add 4 where negative": the clamped word, unchanged. -/
theorem idxarr_read (tg : SPix.Idx → BitVec 32) (j : S16x1x512x512.Idx) :
    val_main_call2_v4 (F := Ideal) tg j = clip (tg (idx_main_v4 j)) := by
  rw [val_main_call2_v4_apply, val_main_call2_v1_apply, val_main_v4_apply, clip_read, val_main_call2_v0_apply,
    val_main_call2_c_apply, clip_slt]
  exact select_zero _ _

/-- The same array with a trailing unit axis. -/
theorem idxvec_read (tg : SPix.Idx → BitVec 32) (i : S16x1x512x512x1.Idx) :
    val_main_call2_v5 (F := Ideal) tg i = clip (tg (idx_main_v4 (idx_main_call2_v5 i))) := by
  rw [val_main_call2_v5_apply, idxarr_read]

/-- Every component of every index vector is in range. -/
theorem inrange_read (tg : SPix.Idx → BitVec 32) : val_main_call2_v11 (F := Ideal) tg = fun _ => 1#1 := by
  funext i
  rw [val_main_call2_v11_apply, val_main_call2_v7_apply, val_main_call2_v10_apply, idxvec_read,
    val_main_call2_v6_apply, val_main_call2_c_2_apply, val_main_call2_v9_apply, val_main_call2_v8_apply,
    val_main_call2_c_1_apply, clip_sge, clip_sle]
  rfl

/-- A conjunction of true bits from true is true. -/
theorem fold_andi_one {ι : Type} (S : Finset ι) : S.fold IntOp.andi 1#1 (fun _ => (1#1 : BitVec 1)) = 1#1 := by
  classical
  induction S using Finset.induction_on with
  | empty => rfl
  | insert a S ha ih =>
    rw [Finset.fold_insert ha, ih]
    rfl

/-- So the conjunction over the index vector's axis is true at every element. -/
theorem allinrange_read (tg : SPix.Idx → BitVec 32) (j : S16x1x512x512.Idx) :
    val_main_call2_v12 (F := Ideal) tg j = 1#1 := by
  unfold val_main_call2_v12
  rw [inrange_read]
  refine (Host.reduce_eq_fold _ _ _ _ _ _).trans ?_
  exact fold_andi_one _

/-! ## The gather -/

/-- The start-indices index of result element (a, 0, c, d): (a, 0, c, d, 0). -/
theorem gather_siIdx (a : Fin 16) (c d : Fin 512) :
    gather_S16x4x512x512_S16x1x512x512x1_S16x1x512x512_n_1_023_023_1_4_1111.siIdx (ix4 a (0 : Fin 1) c d) ⟨0, by decide⟩
      = ix5 a (0 : Fin 1) c d (0 : Fin 1) := by
  funext b
  refine Fin.ext ?_
  match b with
  | ⟨0, _⟩ => rfl
  | ⟨1, _⟩ => rfl
  | ⟨2, _⟩ => rfl
  | ⟨3, _⟩ => rfl
  | ⟨4, _⟩ => rfl

/-- On the batch axis the operand coordinate is the result's: the axis is a batching axis, so the slice starts at 0,
    and it is neither an offset axis. -/
theorem gather_axis0 (idx : IVec S16x1x512x512x1 32) (a : Fin 16) (c d : Fin 512) :
    (gather_S16x4x512x512_S16x1x512x512x1_S16x1x512x512_n_1_023_023_1_4_1111.operandIdx (ix4 a (0 : Fin 1) c d) idx
      (0 : Fin 4)).val = a.val := by
  show 0 + a.val + 0 = a.val
  omega
/-- Likewise on the row axis … -/
theorem gather_axis2 (idx : IVec S16x1x512x512x1 32) (a : Fin 16) (c d : Fin 512) :
    (gather_S16x4x512x512_S16x1x512x512x1_S16x1x512x512_n_1_023_023_1_4_1111.operandIdx (ix4 a (0 : Fin 1) c d) idx
      (2 : Fin 4)).val = c.val := by
  show 0 + c.val + 0 = c.val
  omega
/-- … and on the column axis. -/
theorem gather_axis3 (idx : IVec S16x1x512x512x1 32) (a : Fin 16) (c d : Fin 512) :
    (gather_S16x4x512x512_S16x1x512x512x1_S16x1x512x512_n_1_023_023_1_4_1111.operandIdx (ix4 a (0 : Fin 1) c d) idx
      (3 : Fin 4)).val = d.val := by
  show 0 + d.val + 0 = d.val
  omega
/-- On the class axis (collapsed, not batching, the one the start index maps to) it is the start index's one
    component, read signed and clamped into 0 … 3. -/
theorem gather_axis1 (idx : IVec S16x1x512x512x1 32) (a : Fin 16) (c d : Fin 512) :
    (gather_S16x4x512x512_S16x1x512x512x1_S16x1x512x512_n_1_023_023_1_4_1111.operandIdx (ix4 a (0 : Fin 1) c d) idx
      (1 : Fin 4)).val = min (idx (ix5 a (0 : Fin 1) c d (0 : Fin 1))).toInt.toNat 3 := by
  rw [← gather_siIdx a c d]
  rfl

/-- THE GATHER AT (a, 0, c, d): the operand at batch a, row c, column d and the class k that the start index
    idx (a, 0, c, d, 0), read signed and clamped into 0 … 3, names. On the batch, row and column axes (the batching
    axes) the operand coordinate is the result's; on the class axis (collapsed, and the one the start index maps to)
    it is the clamped start. -/
theorem gather_read {α : Type} (y : S16x4x512x512.Idx → α) (idx : IVec S16x1x512x512x1 32) (a : Fin 16) (c d : Fin 512)
    (k : Fin 4) (hk : k.val = min (idx (ix5 a (0 : Fin 1) c d (0 : Fin 1))).toInt.toNat 3) :
    Host.gather gather_S16x4x512x512_S16x1x512x512x1_S16x1x512x512_n_1_023_023_1_4_1111 y idx (ix4 a (0 : Fin 1) c d)
      = y (ix4 a k c d) := by
  unfold Host.gather
  refine congrArg y ?_
  funext e
  refine Fin.ext ?_
  match e with
  | ⟨0, _⟩ => exact gather_axis0 idx a c d
  | ⟨1, _⟩ => exact (gather_axis1 idx a c d).trans hk.symm
  | ⟨2, _⟩ => exact gather_axis2 idx a c d
  | ⟨3, _⟩ => exact gather_axis3 idx a c d

/-! ## The take -/

/-- The pixel behind element (a, 0, c, d, 0) of the index array. -/
theorem idx_pix (a : Fin 16) (c d : Fin 512) :
    idx_main_v4 (idx_main_call2_v5 (ix5 a (0 : Fin 1) c d (0 : Fin 1))) = ix3 a c d := by
  funext e
  refine Fin.ext ?_
  have hc := c.isLt
  have hd := d.isLt
  match e with
  | ⟨0, _⟩ =>
    show ((((a.val * 1 + 0) * 512 + c.val) * 512 + d.val) * 1 + 0) / 262144 = a.val
    omega
  | ⟨1, _⟩ =>
    show ((((a.val * 1 + 0) * 512 + c.val) * 512 + d.val) * 1 + 0) / 512 % 512 = c.val
    omega
  | ⟨2, _⟩ =>
    show ((((a.val * 1 + 0) * 512 + c.val) * 512 + d.val) * 1 + 0) % 512 = d.val
    omega

/-- THE TAKE AT (a, 0, c, d): the log-softmax at the pixel's clamped class. -/
theorem take_read (x : SLog.Idx → EReal) (tg : SPix.Idx → BitVec 32) (a : Fin 16) (c d : Fin 512) :
    val_main_v5 (F := Ideal) x tg (ix4 a (0 : Fin 1) c d)
      = val_main_v2 (F := Ideal) x (ix4 a (cls (tg (ix3 a c d))) c d) := by
  rw [val_main_v5_apply, allinrange_read, select_one]
  unfold val_main_call2_v13
  refine gather_read _ _ a c d _ ?_
  rw [idxvec_read, idx_pix, clip_index]
  rfl

end Cert.ReferenceIdeal.RefValue

end
-- ==== Proof.RefValueC.lean ====
/-
  The reference's denominator: the number of pixels whose target is not the ignored class.

  The reference widens each pixel's one-bit mask to a 32-bit word, adds the words up from zero, and converts the sum,
  read signed, to a float. A sum of widened bits is the count of the set ones as a word; the count is at most the
  number of pixels, 16 · 512 · 512 = 2²², far below 2³¹, so the word reads signed as the count itself; and a count of
  set bits is the sum of the bits' values.
-/
import proofs.«418493_j18562848654175_3_alg».proof.Proof.RefReadP
import proofs.«418493_j18562848654175_3_alg».proof.Proof.Spec
import Idealize.ShloMosaic.Lib.StableHlo.Predicate

noncomputable section

open scoped BigOperators

namespace Cert.ReferenceIdeal.RefValue

open Cert.ReferenceIdeal Cert.ReferenceIdeal.Gen Cert.ReferenceIdeal.ReadP Idealize.ShloMosaic
  Idealize.ShloMosaic.ValueIdx Cert.Loss

/-- The mask bit at a pixel: the target is not the word 4. -/
theorem mask_read (tg : SPix.Idx → BitVec 32) (i : SPix.Idx) : val_main_v1 (F := Ideal) tg i = live (tg i) := by
  rw [val_main_v1_apply, val_main_v0_apply, val_main_c_apply]
  rfl

/-- The number of set bits among finitely many, as an extended real, is the sum of the bits' values. -/
theorem card_eq_sum {ι : Type} (p : ι → BitVec 1) (S : Finset ι) :
    (((S.filter fun k => p k = 1#1).card : ℝ) : EReal) = ∑ k ∈ S, (((p k).toNat : ℝ) : EReal) := by
  classical
  induction S using Finset.induction_on with
  | empty => simp
  | insert a S ha ih =>
    rw [Finset.sum_insert ha, ← ih, Finset.filter_insert]
    rcases BitVec.eq_zero_or_eq_one (p a) with h | h
    · rw [if_neg (by rw [h]; decide), h]
      simp
    · rw [if_pos h, Finset.card_insert_of_notMem (fun hm => ha (Finset.mem_filter.1 hm).1), h]
      rw [Nat.cast_add, EReal.coe_add, add_comm]
      simp

/-- There are 2²² pixels. -/
theorem card_pix : Fintype.card SPix.Idx = 4194304 := by
  rw [Shape.card_idx]
  decide

/-- The integer sum of the widened mask is the count of the pixels that count, as a word. -/
theorem count_read (tg : SPix.Idx → BitVec 32) (i : S_.Idx) :
    val_main_v17 (F := Ideal) tg i
      = BitVec.ofNat 32 (Finset.univ.filter fun k : SPix.Idx => live (tg k) = 1#1).card := by
  unfold val_main_v17
  refine (Host.reduce_eq_fold _ _ _ _ _ _).trans ?_
  rw [Finset.filter_true_of_mem (fun k _ => funext fun b => b.elim0)]
  have hf : val_main_v16 (F := Ideal) tg = fun k => (live (tg k)).setWidth 32 := by
    funext k
    rw [val_main_v16_apply, mask_read]
  rw [hf]
  exact IndicatorCount.fold_addi_setWidth_eq_card (fun k => live (tg k)) Finset.univ

/-- THE DENOMINATOR: the count converted to a float is the sum of the mask bits' values. -/
theorem den_read (tg : SPix.Idx → BitVec 32) (i : S_.Idx) : val_main_v18 (F := Ideal) tg i = den tg := by
  rw [val_main_v18_apply, count_read]
  have hle : (Finset.univ.filter fun k : SPix.Idx => live (tg k) = 1#1).card ≤ 4194304 :=
    card_pix ▸ Finset.card_le_univ _
  show (((BitVec.ofNat 32 _).toInt : ℝ) : EReal) = _
  rw [StableHlo.Predicate.toInt_ofNat_small _ (by omega)]
  exact card_eq_sum (fun k => live (tg k)) Finset.univ

end Cert.ReferenceIdeal.RefValue

end
-- ==== Proof.RefValue.lean ====
/-
  The reference computes the loss.

  At a pixel (a, c, d) the reference's summand is weight · ((−g) · mask), where g is the log-softmax at the pixel's
  clamped class, (shifted − lse) in the specification's words, and mask is the 0/1 value of the bit "the target is not
  the ignored class". Where the bit is set the summand is weight · (lse − shifted): the shifted logit is finite (the
  logits are, and the largest of them lies between one logit and +∞ exclusive), so −(shifted − lse) = lse − shifted on
  the extended reals whatever lse is. Where the bit is clear the product with 0 is 0, as the specification's term is.
  The float sum over every axis from the zero pattern is the sum of the summands, and the denominator is the sum of the
  mask bits' values; their quotient is the loss.
-/
import proofs.«418493_j18562848654175_3_alg».proof.Proof.RefValueA
import proofs.«418493_j18562848654175_3_alg».proof.Proof.RefValueB
import proofs.«418493_j18562848654175_3_alg».proof.Proof.RefValueC

noncomputable section

open scoped BigOperators

namespace Cert.ReferenceIdeal.RefValue

open Cert.ReferenceIdeal Cert.ReferenceIdeal.Gen Cert.ReferenceIdeal.ReadP Idealize.ShloMosaic
  Idealize.ShloMosaic.ValueIdx Cert.Loss

/-- The reshape that drops the unit class axis reads pixel (a, c, d) at (a, 0, c, d). -/
theorem idx_drop (a : Fin 16) (c d : Fin 512) : idx_main_v6 (ix3 a c d) = ix4 a (0 : Fin 1) c d := by
  funext e
  refine Fin.ext ?_
  have hc := c.isLt
  have hd := d.isLt
  match e with
  | ⟨0, _⟩ =>
    show ((a.val * 512 + c.val) * 512 + d.val) / 262144 = a.val
    omega
  | ⟨1, _⟩ => rfl
  | ⟨2, _⟩ =>
    show ((a.val * 512 + c.val) * 512 + d.val) / 512 % 512 = c.val
    omega
  | ⟨3, _⟩ =>
    show ((a.val * 512 + c.val) * 512 + d.val) % 512 = d.val
    omega

/-- The weight at a pixel: 1 where the ME word is 0, else 1/2. -/
theorem weight_read (me : SPix.Idx → BitVec 32) (i : SPix.Idx) : val_main_v13 (F := Ideal) me i = weight (me i) := by
  rw [val_main_v13_apply, val_main_v12_apply, val_main_v11_apply, val_main_v10_apply, val_main_c_2_apply,
    val_main_call3_v0_apply, val_main_cst_apply, val_main_call3_v1_apply, val_main_cst_3_apply]
  rfl

/-! ## Finiteness of the shifted logit -/

/-- The largest logit is not +∞: the fold starts at −∞ and no logit is +∞. -/
theorem top_ne_top (x : SLog.Idx → EReal) (hfin : ∀ j, x j ≠ ⊥ ∧ x j ≠ ⊤) (i : SPix.Idx) : top x i ≠ ⊤ := by
  refine ne_of_lt ((Finset.fold_max_lt _).mpr ⟨?_, fun k _ => lt_top_iff_ne_top.mpr (hfin _).2⟩)
  rw [negInf_eq]
  exact bot_lt_top

/-- The largest logit is not −∞: it is at least the first logit, which is not. -/
theorem top_ne_bot (x : SLog.Idx → EReal) (hfin : ∀ j, x j ≠ ⊥ ∧ x j ≠ ⊤) (i : SPix.Idx) : top x i ≠ ⊥ := by
  have h : logit x i 0 ≤ top x i := (Finset.le_fold_max _).mpr (Or.inr ⟨0, Finset.mem_univ _, le_rfl⟩)
  intro e
  rw [e] at h
  exact (hfin _).1 (le_bot_iff.mp h)

/-- A difference of two finite extended reals is finite. -/
theorem sub_finite {p q : EReal} (hp : p ≠ ⊥ ∧ p ≠ ⊤) (hq : q ≠ ⊥ ∧ q ≠ ⊤) : p - q ≠ ⊥ ∧ p - q ≠ ⊤ := by
  lift p to ℝ using ⟨hp.2, hp.1⟩
  lift q to ℝ using ⟨hq.2, hq.1⟩
  rw [← EReal.coe_sub]
  exact ⟨EReal.coe_ne_bot _, EReal.coe_ne_top _⟩

/-- So every shifted logit is finite. -/
theorem shifted_finite (x : SLog.Idx → EReal) (hfin : ∀ j, x j ≠ ⊥ ∧ x j ≠ ⊤) (i : SPix.Idx) (k : Fin 4) :
    shifted x i k ≠ ⊥ ∧ shifted x i k ≠ ⊤ :=
  sub_finite (hfin _) ⟨top_ne_bot x hfin i, top_ne_top x hfin i⟩

/-! ## The summand and the loss -/

/-- THE SUMMAND AT A PIXEL is the specification's term. -/
theorem summand_read (x : SLog.Idx → EReal) (tg me : SPix.Idx → BitVec 32) (hfin : ∀ j, x j ≠ ⊥ ∧ x j ≠ ⊤)
    (a : Fin 16) (c d : Fin 512) :
    val_main_v14 (F := Ideal) x tg me (ix3 a c d) = term x tg me (ix3 a c d) := by
  rw [val_main_v14_apply, weight_read, val_main_v9_apply, val_main_v7_apply, val_main_v6_apply, idx_drop, take_read,
    logsoftmax_read, val_main_v8_apply, mask_read]
  unfold term
  obtain ⟨hb, ht⟩ := shifted_finite x hfin (ix3 a c d) (cls (tg (ix3 a c d)))
  rcases BitVec.eq_zero_or_eq_one (live (tg (ix3 a c d))) with h | h
  · rw [h, select_zero, Ideal.ofBits_zero_f32]
    show weight (me (ix3 a c d)) * (-(shifted x (ix3 a c d) (cls (tg (ix3 a c d))) - lse x (ix3 a c d))
      * (((0 : ℕ) : ℝ) : EReal)) = 0
    rw [Nat.cast_zero, EReal.coe_zero, mul_zero, mul_zero]
  · rw [h, select_one]
    show weight (me (ix3 a c d)) * (-(shifted x (ix3 a c d) (cls (tg (ix3 a c d))) - lse x (ix3 a c d))
      * (((1 : ℕ) : ℝ) : EReal)) = weight (me (ix3 a c d)) * (lse x (ix3 a c d) - shifted x (ix3 a c d) (cls (tg (ix3 a c d))))
    rw [Nat.cast_one, EReal.coe_one, mul_one, EReal.neg_sub (Or.inl hb) (Or.inl ht), add_comm, ← sub_eq_add_neg]

/-- THE REFERENCE'S RESULT IS THE LOSS. -/
theorem ref_eq (x : SLog.Idx → EReal) (tg me : SPix.Idx → BitVec 32) (hfin : ∀ j, x j ≠ ⊥ ∧ x j ≠ ⊤) :
    val_main_v19 (F := Ideal) x tg me = fun _ => loss x tg me := by
  funext i
  rw [val_main_v19_apply, val_main_v15_apply, den_read, val_main_cst_4_apply, Ideal.ofBits_def, Ideal.ofBits_zero_f32,
    zero_add]
  refine congrArg (fun n => Ideal.div n (den tg)) (Finset.sum_congr rfl fun j _ => ?_)
  obtain ⟨a, c, d, rfl⟩ : ∃ (a : Fin 16) (c d : Fin 512), j = ix3 a c d := ⟨j 0, j 1, j 2, eq_ix3 j⟩
  exact summand_read x tg me hfin a c d

end Cert.ReferenceIdeal.RefValue

end
-- ==== Proof.Finite.lean ====
/-
  The precondition says every logit is finite.

  The precondition is the conjunction, over every element of the logits, of the bit "|x| < +∞", started from true,
  and it is assumed to come out true. A conjunction that is true met only true bits, so at every element the absolute
  value max x (−x) lies strictly below the extended real the pattern 0x7F800000 denotes, which is the top. Neither
  infinity has that property: |−∞| = |+∞| = +∞. So every element is neither.
-/
import proofs.«418493_j18562848654175_3_alg».proof.Pre_finite_inputs
import Idealize.ShloMosaic.Lib.ReduceAll
import Idealize.ShloMosaic.PureOps.Ideal.Laws

noncomputable section

namespace Cert.Proof.Finite

open Idealize.ShloMosaic Cert.Pre_finite_inputs

/-- The f32 pattern of +∞ denotes the top of the extended reals. -/
theorem posInf_eq : Ideal.ofBits .f32 0x7F800000#32 = ⊤ := by simp [Ideal.ofBits, Ideal.ieee]

/-- The scalar shape has one index. -/
instance : Subsingleton S_.Idx := ⟨fun a b => funext fun d => d.elim0⟩

/-- An extended real whose absolute value is strictly below +∞ is neither infinity. -/
theorem finite_of_abs_lt_top (a : EReal) (h : max a (-a) < ⊤) : a ≠ ⊥ ∧ a ≠ ⊤ := by
  constructor
  · rintro rfl
    simp at h
  · rintro rfl
    simp at h

/-- A comparison bit that is set says the comparison holds. -/
theorem lt_of_olt_eq_one (a b : EReal) (h : Ideal.cmp .olt a b = 1#1) : a < b := by
  by_contra hn
  have h1 : BitVec.ofBool (decide (a < b)) = 1#1 := h
  rw [decide_eq_false hn] at h1
  exact absurd h1 (by decide)

/-- UNDER THE PRECONDITION EVERY LOGIT IS FINITE. -/
theorem finite_of_pre [Facts] (x : FVec Ideal S16x4x512x512 .f32) (tg me : IVec S16x512x512 32)
    (h : fn (F := Ideal) x tg me = fun _ => 1#1) : ∀ j, x j ≠ ⊥ ∧ x j ≠ ⊤ := by
  intro j
  have h0 := congrFun h (fun a => a.elim0)
  dsimp only [fn] at h0
  have hj := Host.reduce_andi_all _ _ _ _ _ h0 j
  have hlt : max (x j) (-(x j)) < Ideal.ofBits .f32 0x7F800000#32 := lt_of_olt_eq_one _ _ hj
  rw [posInf_eq] at hlt
  exact finite_of_abs_lt_top _ hlt

end Cert.Proof.Finite

end
-- ==== Proof.lean ====
/-
  The weighted cross-entropy with an ignored class: the Pallas kernel against its jnp reference.

  Both programs compute ONE function of the three argument arrays, `Cert.Loss.loss` (Proof/Spec.lean): the sum over
  every pixel of weight · (log-sum-exp of the shifted logits − the target's shifted logit) where the target is not the
  ignored class, divided by the number of such pixels.
  The kernel (Proof/KernelPay.lean, KernelValue.lean, KernelRun.lean) handles one batch entry per grid point: it picks
  the target's shifted logit by a four-way one-hot sum, sums the entry's contributions and its 0/1 bits into one element
  each of two [16, 1, 1] arrays, and the host lines after the region add the sixteen entries up and divide.
  The reference (Proof/RefValue*.lean over the stages of Proof/RefReadP.lean) gathers the target's log-softmax entry
  along the class axis — the clamp keeps the index in range, so the gather's fill value is never read —, multiplies by
  the 0/1 mask and the weight, sums everything at once, and counts the mask in 32-bit integers, where 2^22 pixels cannot
  overflow. The one law that needs the precondition: −(a − L) = L − a on the extended reals asks for a finite a, the
  target's shifted logit, which is finite because the logits are (Proof/Finite.lean).
  The frames of the two kernel programs are the generated ones; the reference's frame is its run with the result dropped.
-/
import proofs.«418493_j18562848654175_3_alg».proof.Defs
import proofs.«418493_j18562848654175_3_alg».proof.Proof.Gen.Kernel
import proofs.«418493_j18562848654175_3_alg».proof.Proof.Gen.Kernel.Skeleton
import proofs.«418493_j18562848654175_3_alg».proof.Proof.Gen.Kernel.Launch
import proofs.«418493_j18562848654175_3_alg».proof.Proof.Gen.Kernel.Points
import proofs.«418493_j18562848654175_3_alg».proof.Proof.Gen.Kernel.Frame
import proofs.«418493_j18562848654175_3_alg».proof.Proof.Gen.KernelIdeal
import proofs.«418493_j18562848654175_3_alg».proof.Proof.Gen.KernelIdeal.Skeleton
import proofs.«418493_j18562848654175_3_alg».proof.Proof.Gen.KernelIdeal.Launch
import proofs.«418493_j18562848654175_3_alg».proof.Proof.Gen.KernelIdeal.Points
import proofs.«418493_j18562848654175_3_alg».proof.Proof.Gen.KernelIdeal.Frame
import proofs.«418493_j18562848654175_3_alg».proof.Proof.Gen.ReferenceIdeal
import proofs.«418493_j18562848654175_3_alg».proof.Proof.Gen.Pre_finite_inputs
import proofs.«418493_j18562848654175_3_alg».proof.Proof.KernelRun
import proofs.«418493_j18562848654175_3_alg».proof.Proof.RefRun
import proofs.«418493_j18562848654175_3_alg».proof.Proof.RefValue
import proofs.«418493_j18562848654175_3_alg».proof.Proof.Finite
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The ideal pass rewrote nothing. -/
theorem preserves : Cert.preserves_Kernel_KernelIdeal := trivial

/-- At the ideal values both programs end at the loss of the argument arrays: the kernel's run as it stands, the
    reference's by its stages being that function where the logits are finite, which the precondition says. -/
theorem algebraic : Cert.algebraic_KernelIdeal_ReferenceIdeal := by
  intro m ρ m' ρ' hpre hagree
  refine ⟨fun c => fun _ => Cert.Loss.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Val.run m ρ, ?_⟩
  refine (θ_run Cert.ReferenceIdeal.defs _ _).mono (fun _ h c => ⟨(h c).1.trans ?_, (h c).2⟩)
    (Cert.ReferenceIdeal.RunP.run (F := Ideal) m' ρ')
  rw [(hagree c).1, (hagree c).2.1, (hagree c).2.2]
  exact Cert.ReferenceIdeal.RefValue.ref_eq _ _ _ (Cert.Proof.Finite.finite_of_pre _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
